-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temperature" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x128x64x64 : Shape := ⟨4, ![2, 128, 64, 64]⟩
abbrev S2x64x64 : Shape := ⟨3, ![2, 64, 64]⟩
abbrev S_ : Shape := ⟨0, ![]⟩

class Facts : Prop where
  bcast_S_S2x128x64x64 : S_.BroadcastsInDim S2x128x64x64 (![] : Fin 0 → Fin S2x128x64x64.rank)
  reducesTo_S2x128x64x64_S_d0_1_2_3 : S2x128x64x64.ReducesTo [0, 1, 2, 3] S_
  h_S_ : 0 < S_.numel

variable [Facts]

def fn {F : FTy → Type} [FloatOps F] (main_arg0 : FVec F S2x128x64x64 .f32) (main_arg1 : IVec S2x64x64 32) : IVec S_ 1 :=
  let main_v0 : FVec F S2x128x64x64 .f32 := Host.absf main_arg0
  let main_cst : FVec F S_ .f32 := constant S_ .f32 0x7F800000#32
  let main_v1 : FVec F S2x128x64x64 .f32 := broadcastInDim S2x128x64x64 ![] bcast_S_S2x128x64x64 main_cst
  let main_v2 : IVec S2x128x64x64 1 := cmpf .olt main_v0 main_v1
  let main_c : IVec S_ 1 := constantI S_ 1 1#1
  let main_v3 : IVec S_ 1 := (fun x v => Host.reduce IntOp.andi x v reducesTo_S2x128x64x64_S_d0_1_2_3 h_S_) main_v2 main_c
  main_v3
-- ==== Kernel.lean ====
abbrev S2x128x64x64 : Shape := ⟨4, ![2, 128, 64, 64]⟩
abbrev S2x64x64 : Shape := ⟨3, ![2, 64, 64]⟩
abbrev S2x64x64x128 : Shape := ⟨4, ![2, 64, 64, 128]⟩
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S1024x128 : Shape := ⟨2, ![1024, 128]⟩
abbrev S2048x128 : Shape := ⟨2, ![2048, 128]⟩
abbrev S1024x1 : Shape := ⟨2, ![1024, 1]⟩
abbrev S1x2048 : Shape := ⟨2, ![1, 2048]⟩
abbrev S1024x2048 : Shape := ⟨2, ![1024, 2048]⟩
abbrev S1024 : Shape := ⟨1, ![1024]⟩
abbrev S4 : Shape := ⟨1, ![4]⟩

abbrev nBuf : Space → Nat
  | .hbm => 56
  | .vmem => 14
  | .smem => 0
  | _ => 0

abbrev bufTy : (tb : Table) → Fin (tcTables nBuf tb) → BufTy
  | .hbm, ⟨0, _⟩ => ⟨S2x128x64x64, .f32⟩
  | .hbm, ⟨1, _⟩ => ⟨S2x64x64, .i32⟩
  | .hbm, ⟨2, _⟩ => ⟨S2x64x64x128, .f32⟩
  | .hbm, ⟨3, _⟩ => ⟨S8192x128, .f32⟩
  | .hbm, ⟨4, _⟩ => ⟨S8192x128, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x128, .f32⟩
  | .hbm, ⟨13, _⟩ => ⟨S8192x128, .f32⟩
  | .hbm, ⟨14, _⟩ => ⟨S8192x128, .bf16⟩
  | .hbm, ⟨15, _⟩ => ⟨S8192, .i32⟩
  | .hbm, ⟨16, _⟩ => ⟨S8192x1, .i32⟩
  | .hbm, ⟨17, _⟩ => ⟨S1x8192, .i32⟩
  | .hbm, ⟨18, _⟩ => ⟨S8192x1, .f32⟩
  | .hbm, ⟨19, _⟩ => ⟨S8192x1, .f32⟩
  | .hbm, ⟨20, _⟩ => ⟨S8192, .f32⟩
  | .hbm, ⟨21, _⟩ => ⟨S8192, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S8192, .f32⟩
  | .hbm, ⟨26, _⟩ => ⟨S8192, .f32⟩
  | .hbm, ⟨27, _⟩ => ⟨S8192, .f32⟩
  | .hbm, ⟨28, _⟩ => ⟨S_, .f32⟩
  | .hbm, ⟨29, _⟩ => ⟨S4, .f32⟩
  | .hbm, ⟨30, _⟩ => ⟨S8192x1, .i32⟩
  | .hbm, ⟨31, _⟩ => ⟨S4, .f32⟩
  | .hbm, ⟨32, _⟩ => ⟨S_, .f32⟩
  | .hbm, ⟨33, _⟩ => ⟨S8192, .f32⟩
  | .hbm, ⟨34, _⟩ => ⟨S_, .f32⟩
  | .hbm, ⟨35, _⟩ => ⟨S4, .f32⟩
  | .hbm, ⟨36, _⟩ => ⟨S8192x1, .i32⟩
  | .hbm, ⟨37, _⟩ => ⟨S4, .f32⟩
  | .hbm, ⟨38, _⟩ => ⟨S_, .f32⟩
  | .hbm, ⟨39, _⟩ => ⟨S4, .f32⟩
  | .hbm, ⟨40, _⟩ => ⟨S4, .i1⟩
  | .hbm, ⟨41, _⟩ => ⟨S_, .f32⟩
  | .hbm, ⟨42, _⟩ => ⟨S4, .f32⟩
  | .hbm, ⟨43, _⟩ => ⟨S4, .f32⟩
  | .hbm, ⟨44, _⟩ => ⟨S4, .f32⟩
  | .hbm, ⟨45, _⟩ => ⟨S_, .f32⟩
  | .hbm, ⟨46, _⟩ => ⟨S_, .f32⟩
  | .hbm, ⟨47, _⟩ => ⟨S4, .f32⟩
  | .hbm, ⟨48, _⟩ => ⟨S4, .f32⟩
  | .hbm, ⟨49, _⟩ => ⟨S_, .f32⟩
  | .hbm, ⟨50, _⟩ => ⟨S_, .f32⟩
  | .hbm, ⟨51, _⟩ => ⟨S4, .i32⟩
  | .hbm, ⟨52, _⟩ => ⟨S_, .i32⟩
  | .hbm, ⟨53, _⟩ => ⟨S_, .i32⟩
  | .hbm, ⟨54, _⟩ => ⟨S_, .f32⟩
  | .hbm, ⟨55, _⟩ => ⟨S_, .f32⟩
  | .local _ .vmem, ⟨0, _⟩ => ⟨S1024x128, .bf16⟩
  | .local _ .vmem, ⟨1, _⟩ => ⟨S1024x128, .bf16⟩
  | .local _ .vmem, ⟨2, _⟩ => ⟨S2048x128, .bf16⟩
  | .local _ .vmem, ⟨3, _⟩ => ⟨S2048x128, .bf16⟩
  | .local _ .vmem, ⟨4, _⟩ => ⟨S1024x1, .i32⟩
  | .local _ .vmem, ⟨5, _⟩ => ⟨S1024x1, .i32⟩
  | .local _ .vmem, ⟨6, _⟩ => ⟨S1x2048, .i32⟩
  | .local _ .vmem, ⟨7, _⟩ => ⟨S1x2048, .i32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | _, _ => ⟨S2x128x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_call1_v0 : Ref sig .tc := ⟨.hbm, 46, rfl⟩
abbrev main_call1_v1 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_c : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v45 : BitVec 1 := Scalar.cmpi .eq arg1 c3_i32
  let v46 : BitVec 32 := Scalar.extui v45
  let c0_i32_21 : BitVec 32 := 0#32
  let v47 : BitVec 1 := Scalar.cmpi .ne v46 c0_i32_21
  v47

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  transposes_S2x128x64x64_S2x64x64x128_0_2_3_1 : S2x128x64x64.Transposes [0, 2, 3, 1] S2x64x64x128
  shapeCasts_S2x64x64x128_S8192x128 : S2x64x64x128.ShapeCasts S8192x128
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  bitsLt_bf16_f32 : FTy.bits .bf16 < FTy.bits .f32
  shapeCasts_S2x64x64_S8192 : S2x64x64.ShapeCasts S8192
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  iota_S1024x2048_d0_w32 : S1024x2048.Iotas .tc 32 [0]
  iota_S1024x2048_d1_w32 : S1024x2048.Iotas .tc 32 [1]
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1024x1_S1024x2048 : S1024x1.Broadcasts S1024x2048
  broadcasts_S1x2048_S1024x2048 : S1x2048.Broadcasts S1024x2048
  reduces_S1024x2048_S1024 : S1024x2048.Reduces [1] S1024
  shapeCasts_S1024_S1024x1 : S1024.ShapeCasts S1024x1
  shapeCasts_S8192x1_S8192 : S8192x1.ShapeCasts S8192
  bcast_S_S8192 : S_.BroadcastsInDim S8192 (![] : Fin 0 → Fin S8192.rank)
  bcast_S_S4 : S_.BroadcastsInDim S4 (![] : Fin 0 → Fin S4.rank)
  reducesTo_S4_S_d0 : S4.ReducesTo [0] S_
  natLt_1_32 : 1 < 32
  dot_S1024x128_S2048x128_S1024x2048_1_1_0_0_n_n_wf : DotDims.WF S1024x128 S2048x128 S1024x2048 [1] [1] [0] [0] [] []
  scatter_S4_S8192x1_S8192_n_0_0_1_wf : ScatterDims.WF S4 S8192x1 S8192 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .bf16 = 32 ∨ (Rect.block (s := S8192x128) S1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S8192x128.size a
  hwx0_1 : ∀ i : grid0.Coords, EltTy.bits .bf16 = 32 ∨ (Rect.block (s := S8192x128) S2048x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x8192.size a
  hwx0_3 : ∀ i : grid0.Coords, EltTy.bits .i32 = 32 ∨ (Rect.block (s := S1x8192) S1x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)

variable [Facts₀]

def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf
def scatter_S4_S8192x1_S8192_n_0_0_1 : ScatterDims S4 S8192x1 S8192 where
  updateWindowDims := []
  insertedWindowDims := [0]
  scatterDimsToOperandDims := [0]
  indexVectorDim := 1
  wf := scatter_S4_S8192x1_S8192_n_0_0_1_wf

abbrev win0_0 : Pipeline.Window sig grid0 :=
  Pipeline.Window.ofSpec (Memref.whole main_v7) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11_0) S1024x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11_1) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S2x128x64x64 : Shape := ⟨4, ![2, 128, 64, 64]⟩
abbrev S2x64x64 : Shape := ⟨3, ![2, 64, 64]⟩
abbrev S2x64x64x128 : Shape := ⟨4, ![2, 64, 64, 128]⟩
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S128x8192 : Shape := ⟨2, ![128, 8192]⟩
abbrev S8192x8192 : Shape := ⟨2, ![8192, 8192]⟩
abbrev S8192x2 : Shape := ⟨2, ![8192, 2]⟩
abbrev S1x8192 : Shape := ⟨2, ![1, 8192]⟩
abbrev S4 : Shape := ⟨1, ![4]⟩

abbrev nBuf : Space → Nat
  | .hbm => 89
  | .vmem => 0
  | .smem => 0
  | _ => 0

abbrev bufTy : (tb : Table) → Fin (tcTables nBuf tb) → BufTy
  | .hbm, ⟨0, _⟩ => ⟨S2x128x64x64, .f32⟩
  | .hbm, ⟨1, _⟩ => ⟨S2x64x64, .i32⟩
  | .hbm, ⟨2, _⟩ => ⟨S2x64x64x128, .f32⟩
  | .hbm, ⟨3, _⟩ => ⟨S8192x128, .f32⟩
  | .hbm, ⟨4, _⟩ => ⟨S8192, .i32⟩
  | .hbm, ⟨5, _⟩ => ⟨S8192x128, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x128, .f32⟩
  | .hbm, ⟨14, _⟩ => ⟨S8192x128, .f32⟩
  | .hbm, ⟨15, _⟩ => ⟨S128x8192, .f32⟩
  | .hbm, ⟨16, _⟩ => ⟨S8192x8192, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192, .i32⟩
  | .hbm, ⟨21, _⟩ => ⟨S_, .i32⟩
  | .hbm, ⟨22, _⟩ => ⟨S8192, .i32⟩
  | .hbm, ⟨23, _⟩ => ⟨S8192, .i1⟩
  | .hbm, ⟨24, _⟩ => ⟨S_, .i32⟩
  | .hbm, ⟨25, _⟩ => ⟨S8192, .i32⟩
  | .hbm, ⟨26, _⟩ => ⟨S8192, .i32⟩
  | .hbm, ⟨27, _⟩ => ⟨S8192, .i32⟩
  | .hbm, ⟨28, _⟩ => ⟨S_, .i32⟩
  | .hbm, ⟨29, _⟩ => ⟨S8192, .i32⟩
  | .hbm, ⟨30, _⟩ => ⟨S8192, .i1⟩
  | .hbm, ⟨31, _⟩ => ⟨S_, .i32⟩
  | .hbm, ⟨32, _⟩ => ⟨S8192, .i32⟩
  | .hbm, ⟨33, _⟩ => ⟨S8192, .i32⟩
  | .hbm, ⟨34, _⟩ => ⟨S8192, .i32⟩
  | .hbm, ⟨35, _⟩ => ⟨S8192x1, .i32⟩
  | .hbm, ⟨36, _⟩ => ⟨S8192x1, .i32⟩
  | .hbm, ⟨37, _⟩ => ⟨S8192x2, .i32⟩
  | .hbm, ⟨38, _⟩ => ⟨S_, .f32⟩
  | .hbm, ⟨39, _⟩ => ⟨S8192, .f32⟩
  | .hbm, ⟨40, _⟩ => ⟨S8192x8192, .f32⟩
  | .hbm, ⟨41, _⟩ => ⟨S8192x8192, .f32⟩
  | .hbm, ⟨42, _⟩ => ⟨S8192x1, .i32⟩
  | .hbm, ⟨43, _⟩ => ⟨S1x8192, .i32⟩
  | .hbm, ⟨44, _⟩ => ⟨S8192x8192, .i32⟩
  | .hbm, ⟨45, _⟩ => ⟨S8192x8192, .i32⟩
  | .hbm, ⟨46, _⟩ => ⟨S8192x8192, .i1⟩
  | .hbm, ⟨47, _⟩ => ⟨S_, .f32⟩
  | .hbm, ⟨48, _⟩ => ⟨S_, .f32⟩
  | .hbm, ⟨49, _⟩ => ⟨S8192x8192, .f32⟩
  | .hbm, ⟨50, _⟩ => ⟨S8192x8192, .f32⟩
  | .hbm, ⟨51, _⟩ => ⟨S_, .f32⟩
  | .hbm, ⟨52, _⟩ => ⟨S8192, .f32⟩
  | .hbm, ⟨53, _⟩ => ⟨S_, .f32⟩
  | .hbm, ⟨54, _⟩ => ⟨S8192, .f32⟩
  | .hbm, ⟨55, _⟩ => ⟨S_, .f32⟩
  | .hbm, ⟨56, _⟩ => ⟨S8192, .f32⟩
  | .hbm, ⟨57, _⟩ => ⟨S8192, .f32⟩
  | .hbm, ⟨58, _⟩ => ⟨S8192, .f32⟩
  | .hbm, ⟨59, _⟩ => ⟨S8192, .f32⟩
  | .hbm, ⟨60, _⟩ => ⟨S8192, .f32⟩
  | .hbm, ⟨61, _⟩ => ⟨S_, .f32⟩
  | .hbm, ⟨62, _⟩ => ⟨S4, .f32⟩
  | .hbm, ⟨63, _⟩ => ⟨S8192x1, .i32⟩
  | .hbm, ⟨64, _⟩ => ⟨S4, .f32⟩
  | .hbm, ⟨65, _⟩ => ⟨S_, .f32⟩
  | .hbm, ⟨66, _⟩ => ⟨S8192, .f32⟩
  | .hbm, ⟨67, _⟩ => ⟨S_, .f32⟩
  | .hbm, ⟨68, _⟩ => ⟨S4, .f32⟩
  | .hbm, ⟨69, _⟩ => ⟨S8192x1, .i32⟩
  | .hbm, ⟨70, _⟩ => ⟨S4, .f32⟩
  | .hbm, ⟨71, _⟩ => ⟨S_, .f32⟩
  | .hbm, ⟨72, _⟩ => ⟨S4, .f32⟩
  | .hbm, ⟨73, _⟩ => ⟨S4, .i1⟩
  | .hbm, ⟨74, _⟩ => ⟨S_, .f32⟩
  | .hbm, ⟨75, _⟩ => ⟨S4, .f32⟩
  | .hbm, ⟨76, _⟩ => ⟨S4, .f32⟩
  | .hbm, ⟨77, _⟩ => ⟨S4, .f32⟩
  | .hbm, ⟨78, _⟩ => ⟨S_, .f32⟩
  | .hbm, ⟨79, _⟩ => ⟨S_, .f32⟩
  | .hbm, ⟨80, _⟩ => ⟨S4, .f32⟩
  | .hbm, ⟨81, _⟩ => ⟨S4, .f32⟩
  | .hbm, ⟨82, _⟩ => ⟨S_, .f32⟩
  | .hbm, ⟨83, _⟩ => ⟨S_, .f32⟩
  | .hbm, ⟨84, _⟩ => ⟨S4, .i32⟩
  | .hbm, ⟨85, _⟩ => ⟨S_, .i32⟩
  | .hbm, ⟨86, _⟩ => ⟨S_, .i32⟩
  | .hbm, ⟨87, _⟩ => ⟨S_, .f32⟩
  | .hbm, ⟨88, _⟩ => ⟨S_, .f32⟩
  | _, _ => ⟨S2x128x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_call1_v0 : Ref sig .tc := ⟨.hbm, 48, rfl⟩
abbrev main_call1_v1 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_cst_11 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_12 : Ref sig .tc := ⟨.hbm, 71, rfl⟩
abbrev main_v49 : Ref sig .tc := ⟨.hbm, 72, rfl⟩
abbrev main_v50 : Ref sig .tc := ⟨.hbm, 73, rfl⟩
abbrev main_cst_13 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_14 : Ref sig .tc := ⟨.hbm, 78, rfl⟩
abbrev main_call2_v0 : Ref sig .tc := ⟨.hbm, 79, rfl⟩
abbrev main_call2_v1 : Ref sig .tc := ⟨.hbm, 80, rfl⟩
abbrev main_v54 : Ref sig .tc := ⟨.hbm, 81, rfl⟩
abbrev main_cst_15 : Ref sig .tc := ⟨.hbm, 82, rfl⟩
abbrev main_v55 : Ref sig .tc := ⟨.hbm, 83, rfl⟩
abbrev main_v56 : Ref sig .tc := ⟨.hbm, 84, rfl⟩
abbrev main_c_16 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩

abbrev nD : Nat := 1
abbrev τ : Topo := Topo.v7x

variable {F : FTy → Type} [FloatOps F]

class Facts₀ : Prop where
  transposes_S2x128x64x64_S2x64x64x128_0_2_3_1 : S2x128x64x64.Transposes [0, 2, 3, 1] S2x64x64x128
  shapeCasts_S2x64x64x128_S8192x128 : S2x64x64x128.ShapeCasts S8192x128
  shapeCasts_S2x64x64_S8192 : S2x64x64.ShapeCasts S8192
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  transposes_S8192x128_S128x8192_1_0 : S8192x128.Transposes [1, 0] S128x8192
  bcast_S_S8192x8192 : S_.BroadcastsInDim S8192x8192 (![] : Fin 0 → Fin S8192x8192.rank)
  bcast_S_S8192 : S_.BroadcastsInDim S8192 (![] : Fin 0 → Fin S8192.rank)
  concatenates_S8192x1_S8192x1_S8192x2_d1 : Shape.Concatenates [S8192x1, S8192x1] S8192x2 1
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S8192_d1 : S8192x8192.ReducesTo [1] S8192
  bcast_S_S4 : S_.BroadcastsInDim S4 (![] : Fin 0 → Fin S4.rank)
  reducesTo_S4_S_d0 : S4.ReducesTo [0] S_
  natLt_1_32 : 1 < 32
  dot_S8192x128_S128x8192_S8192x8192_1_0_0_1_n_n_wf : DotDims.WF S8192x128 S128x8192 S8192x8192 [1] [0] [0] [1] [] []
  scatter_S8192x8192_S8192x2_S8192_n_01_01_1_wf : ScatterDims.WF S8192x8192 S8192x2 S8192 [] [0, 1] [0, 1] 1
  scatter_S4_S8192x1_S8192_n_0_0_1_wf : ScatterDims.WF S4 S8192x1 S8192 [] [0] [0] 1

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf
def scatter_S8192x8192_S8192x2_S8192_n_01_01_1 : ScatterDims S8192x8192 S8192x2 S8192 where
  updateWindowDims := []
  insertedWindowDims := [0, 1]
  scatterDimsToOperandDims := [0, 1]
  indexVectorDim := 1
  wf := scatter_S8192x8192_S8192x2_S8192_n_01_01_1_wf
def scatter_S4_S8192x1_S8192_n_0_0_1 : ScatterDims S4 S8192x1 S8192 where
  updateWindowDims := []
  insertedWindowDims := [0]
  scatterDimsToOperandDims := [0]
  indexVectorDim := 1
  wf := scatter_S4_S8192x1_S8192_n_0_0_1_wf

class Facts : Prop extends Facts₀ where

variable [Facts]
-- ==== Proof.KIDefs.lean ====
/-
  The contrastive-sums kernel, point by point. The grid is 8 row tiles by 4 column tiles, the column
  tile innermost, so the point of position t has row tile t / 4 and column tile t % 4. At each point the
  body adds to two running columns of 1024 row sums (the same-label sum and the total sum of
  exp(logit) over the 2048 columns of the tile): it clears them at column tile 0, and at column
  tile 3 copies them to the two output blocks, which are written back there. This module NAMES what the
  two running columns and the two output blocks hold after each point, as pure terms of the point's
  four input blocks and of what the point before left.
-/
import proofs.«400339_j87479893885192_3_alg».proof.Proof.Gen.KernelIdeal.Launch
import proofs.«400339_j87479893885192_3_alg».proof.Proof.Gen.KernelIdeal.Skeleton
import proofs.«400339_j87479893885192_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## One point's arithmetic -/

/-- The same-label running column after a point: what it held (`acc`) plus the point's same-label
    row sums of exp(logit) over the column tile. -/
def posStep (i : grid0.Coords) (x0 : Vec F S1024x128 .bf16) (x1 : Vec F S2048x128 .bf16)
    (l0 : Vec F S1024x1 .i32) (l1 : Vec F S1x2048 .i32) (acc : Vec F S1024x1 .f32) : Vec F S1024x1 .f32 :=
  k0_pay1 (k0_pay7 i x0 x1 l0 l1 acc)

/-- The total running column after a point: what it held plus the point's row sums of exp(logit). -/
def totStep (i : grid0.Coords) (x0 : Vec F S1024x128 .bf16) (x1 : Vec F S2048x128 .bf16)
    (acc : Vec F S1024x1 .f32) : Vec F S1024x1 .f32 :=
  k0_pay2 (k0_pay6 i x0 x1) acc

/-- The two running columns cleared (column tile 0 starts from these). -/
def posZero : Vec F S1024x1 .f32 := k0_pay3 (F := F)
def totZero : Vec F S1024x1 .f32 := k0_pay4 (F := F)

section AtEntry
-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The four input blocks of a point at their literal types: 1024 rows of the embeddings, 2048 rows
    of the embeddings (the columns of the score tile), the rows' labels, the columns' labels. -/
abbrev eRow (c : Dev nD) (t : Fin cfg0.N) : Vec F S1024x128 .bf16 := iblk V c 0 t
abbrev eCol (c : Dev nD) (t : Fin cfg0.N) : Vec F S2048x128 .bf16 := iblk V c 1 t
abbrev lRow (c : Dev nD) (t : Fin cfg0.N) : Vec F S1024x1 .i32 := iblk V c 2 t
abbrev lCol (c : Dev nD) (t : Fin cfg0.N) : Vec F S1x2048 .i32 := iblk V c 3 t

/-- The two running columns after the point of position `n`: cleared first when the column tile is 0,
    else continued from the point before. -/
def accAt (c : Dev nD) : (n : ℕ) → n < cfg0.N → Vec F S1024x1 .f32 × Vec F S1024x1 .f32
  | 0, hn => (posStep (grid0.coords ⟨0, hn⟩) (eRow V c ⟨0, hn⟩) (eCol V c ⟨0, hn⟩) (lRow V c ⟨0, hn⟩) (lCol V c ⟨0, hn⟩) posZero,
      totStep (grid0.coords ⟨0, hn⟩) (eRow V c ⟨0, hn⟩) (eCol V c ⟨0, hn⟩) totZero)
  | n + 1, hn =>
    if (n + 1) % 4 = 0 then
      (posStep (grid0.coords ⟨n + 1, hn⟩) (eRow V c ⟨n + 1, hn⟩) (eCol V c ⟨n + 1, hn⟩) (lRow V c ⟨n + 1, hn⟩) (lCol V c ⟨n + 1, hn⟩) posZero,
        totStep (grid0.coords ⟨n + 1, hn⟩) (eRow V c ⟨n + 1, hn⟩) (eCol V c ⟨n + 1, hn⟩) totZero)
    else
      (posStep (grid0.coords ⟨n + 1, hn⟩) (eRow V c ⟨n + 1, hn⟩) (eCol V c ⟨n + 1, hn⟩) (lRow V c ⟨n + 1, hn⟩) (lCol V c ⟨n + 1, hn⟩) (accAt c n (Nat.lt_of_succ_lt hn)).1,
        totStep (grid0.coords ⟨n + 1, hn⟩) (eRow V c ⟨n + 1, hn⟩) (eCol V c ⟨n + 1, hn⟩) (accAt c n (Nat.lt_of_succ_lt hn)).2)

/-- `accAt` at a point of column tile 0: started from the cleared columns. -/
theorem accAt_first (c : Dev nD) (t : Fin cfg0.N) (h0 : t.val % 4 = 0) :
    accAt V c t.val t.isLt = (posStep (grid0.coords t) (eRow V c t) (eCol V c t) (lRow V c t) (lCol V c t) posZero,
      totStep (grid0.coords t) (eRow V c t) (eCol V c t) totZero) := by
  obtain ⟨n, hn⟩ := t
  cases n with
  | zero => rfl
  | succ n => exact (if_pos h0)

/-- `accAt` at a point of a later column tile: continued from the point before. -/
theorem accAt_next (c : Dev nD) (t : Fin cfg0.N) (h0 : ¬ t.val % 4 = 0) :
    accAt V c t.val t.isLt = (posStep (grid0.coords t) (eRow V c t) (eCol V c t) (lRow V c t) (lCol V c t)
        (accAt V c (t.val - 1) (Nat.lt_of_le_of_lt (Nat.sub_le _ _) t.isLt)).1,
      totStep (grid0.coords t) (eRow V c t) (eCol V c t) (accAt V c (t.val - 1) (Nat.lt_of_le_of_lt (Nat.sub_le _ _) t.isLt)).2) := by
  obtain ⟨n, hn⟩ := t
  cases n with
  | zero => exact absurd (Nat.zero_mod _) h0
  | succ n => exact (if_neg h0)

end AtEntry

end Cert.KernelIdeal.Hand

end
-- ==== Proof.KIRuns.lean ====
/-
  The kernel body at one grid point, in each of the three cases the column tile puts it in: the first
  column tile (the running columns cleared, then added to), a middle one (added to), the last one
  (added to, then copied to the two output blocks). Each is a triple on whole staging memrefs: the
  input blocks are handed back as they were, the running columns at what KIDefs names.
-/
import proofs.«400339_j87479893885192_3_alg».proof.Proof.KIDefs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The body's first branch condition (the column tile is 0), as the body computes it. -/
abbrev cond0 (i : grid0.Coords) : Prop := (Scalar.cmpi .ne (Scalar.extui (Scalar.cmpi .eq (BitVec.ofNat 32 (i 1).val) 0#32)) 0#32) = 1#1
/-- The body's second branch condition (the column tile is the last, 3). -/
abbrev cond1 (i : grid0.Coords) : Prop := k0_cond2 i = 1#1

theorem hcond0 : ∀ t : Fin cfg0.N, cond0 (grid0.coords t) ↔ t.val % 4 = 0 :=
  (by decide +kernel : ∀ t : Fin grid0.N, cond0 (grid0.coords t) ↔ t.val % 4 = 0)
theorem hcond1 : ∀ t : Fin cfg0.N, cond1 (grid0.coords t) ↔ t.val % 4 = 3 :=
  (by decide +kernel : ∀ t : Fin grid0.N, cond1 (grid0.coords t) ↔ t.val % 4 = 3)

/-- A whole-block access has zero offsets on both axes. -/
theorem hz2 : (![0, 0] : Fin 2 → Nat) = fun _ => 0 := funext fun a => by fin_cases a <;> rfl

set_option maxHeartbeats 1000000 in
/-- The body at a point of the first column tile: both running columns are cleared and then added to, so
    they end at one step from the cleared columns; the output blocks are not touched. -/
theorem kernelRun_first (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0 i) (hc1 : ¬cond1 i)
    (x0 : Vec F S1024x128 .bf16) (x1 : Vec F S2048x128 .bf16) (l0 : Vec F S1024x1 .i32) (l1 : Vec F S1x2048 .i32) (o0 o1 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare l0 ∗ owns (c : Thread nD τ) arg5 fullShare l1 ∗ owns (c : Thread nD τ) arg6 fullShare o0 ∗ owns (c : Thread nD τ) arg7 fullShare o1 ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare l0 ∗ owns (c : Thread nD τ) arg5 fullShare l1 ∗ owns (c : Thread nD τ) arg6 fullShare o0 ∗ owns (c : Thread nD τ) arg7 fullShare o1 ∗ owns (c : Thread nD τ) arg8 fullShare (posStep i x0 x1 l0 l1 posZero) ∗ owns (c : Thread nD τ) arg9 fullShare (totStep i x0 x1 totZero)) -∗ K ⟨⟩))
      ⊢ wp frame (wpE (defs₀ (F := F)) Variants.none c none) E (cc0__contrastive_kernel i arg2 harg2 arg3 harg3 arg4 harg4 arg5 harg5 arg6 harg6 arg7 harg7 arg8 harg8 arg9 harg9) K := by
  simp only [cc0__contrastive_kernel_eq_skeleton]; unfold cc0__contrastive_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  obtain rfl := harg2.eq_unread hf2; obtain rfl := harg3.eq_unread hf3; obtain rfl := harg4.eq_unread hf4; obtain rfl := harg5.eq_unread hf5
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists f6; isplitr; · ipureintro; exact hf6
    iexact H6
  isplitl [H7]
  · iexists f7; isplitr; · ipureintro; exact hf7
    iexact H7
  isplitl [H8]
  · iexists _; isplitr
    swap; · iexact H8
    ipureintro
    rw [View.read_writes_eq_canon _ _ _ (fun y => ⟨_, List.Mem.head _, View.mem_set_unit_zero hz2 inb_S1024x1_S1024x1_0_0 y⟩)]
    sl_unfold_words
    rw [View.canon_cons_unit_zero (S := S1024x1) hz2]
    simp only [View.readAt_eq_ld, Memref.IsWhole.read_unread, View.ld_unit_zero (S := S1024x1) hz2, View.ld_unit_zero (S := S1024x128) hz2, View.ld_unit_zero (S := S2048x128) hz2, View.ld_unit_zero (S := S1x2048) hz2, View.readCov_unit_zero (S := S1024x1) _ hz2]
    rfl
  iexists _; isplitr
  swap; · iexact H9
  ipureintro
  rw [View.read_writes_eq_canon _ _ _ (fun y => ⟨_, List.Mem.head _, View.mem_set_unit_zero hz2 inb_S1024x1_S1024x1_0_0 y⟩)]
  sl_unfold_words
  rw [View.canon_cons_unit_zero (S := S1024x1) hz2]
  simp only [View.readAt_eq_ld, Memref.IsWhole.read_unread, View.ld_unit_zero (S := S1024x1) hz2, View.ld_unit_zero (S := S1024x128) hz2, View.ld_unit_zero (S := S2048x128) hz2, View.ld_unit_zero (S := S1x2048) hz2, View.readCov_unit_zero (S := S1024x1) _ hz2]
  rfl

set_option maxHeartbeats 1000000 in
/-- The body at a point of a middle column tile: each running column ends one step on from what it held;
    the output blocks are not touched. -/
theorem kernelRun_mid (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0 i) (hc1 : ¬cond1 i)
    (x0 : Vec F S1024x128 .bf16) (x1 : Vec F S2048x128 .bf16) (l0 : Vec F S1024x1 .i32) (l1 : Vec F S1x2048 .i32) (o0 o1 a0 a1 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare l0 ∗ owns (c : Thread nD τ) arg5 fullShare l1 ∗ owns (c : Thread nD τ) arg6 fullShare o0 ∗ owns (c : Thread nD τ) arg7 fullShare o1 ∗ owns (c : Thread nD τ) arg8 fullShare a0 ∗ owns (c : Thread nD τ) arg9 fullShare a1
        ∗ (iprop(owns (c : Thread nD τ) arg2 fullShare x0 ∗ owns (c : Thread nD τ) arg3 fullShare x1 ∗ owns (c : Thread nD τ) arg4 fullShare l0 ∗ owns (c : Thread nD τ) arg5 fullShare l1 ∗ owns (c : Thread nD τ) arg6 fullShare o0 ∗ owns (c : Thread nD τ) arg7 fullShare o1 ∗ owns (c : Thread nD τ) arg8 fullShare (posStep i x0 x1 l0 l1 a0) ∗ owns (c : Thread nD τ) arg9 fullShare (totStep i x0 x1 a1)) -∗ K ⟨⟩))
      ⊢ wp frame (wpE (defs₀ (F := F)) Variants.none c none) E (cc0__contrastive_kernel i arg2 harg2 arg3 harg3 arg4 harg4 arg5 harg5 arg6 harg6 arg7 harg7 arg8 harg8 arg9 harg9) K := by
  simp only [cc0__contrastive_kernel_eq_skeleton]; unfold cc0__contrastive_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5
  obtain rfl := harg8.eq_unread hf8; obtain rfl := harg9.eq_unread hf9
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists f6; isplitr; · ipureintro; exact hf6
    iexact H6
  isplitl [H7]
  · iexists f7; isplitr; · ipureintro; exact hf7
    iexact H7
  isplitl [H8]
  · iexists _; isplitr
    swap; · iexact H8
    ipureintro
    rw [View.read_writes_eq_canon _ _ _ (fun y => ⟨_, List.mem_singleton_self _, View.mem_set_unit_zero hz2 inb_S1024x1_S1024x1_0_0 y⟩)]
    sl_unfold_words
    rw [View.canon_unit_zero hz2]
    simp only [View.readAt_eq_ld, Memref.IsWhole.read_unread, View.ld_unit_zero (S := S1024x1) hz2, View.ld_unit_zero (S := S1024x128) hz2, View.ld_unit_zero (S := S2048x128) hz2, View.ld_unit_zero (S := S1x2048) hz2]
    rfl
  iexists _; isplitr
  swap; · iexact H9
  ipureintro
  rw [View.read_writes_eq_canon _ _ _ (fun y => ⟨_, List.mem_singleton_self _, View.mem_set_unit_zero hz2 inb_S1024x1_S1024x1_0_0 y⟩)]
  sl_unfold_words
  rw [View.canon_unit_zero hz2]
  simp only [View.readAt_eq_ld, Memref.IsWhole.read_unread, View.ld_unit_zero (S := S1024x1) hz2, View.ld_unit_zero (S := S1024x128) hz2, View.ld_unit_zero (S := S2048x128) hz2, View.ld_unit_zero (S := S1x2048) hz2]
  rfl

set_option maxHeartbeats 1000000 in
/-- The body at a point of the last column tile: each running column ends one step on from what it held,
    and each output block ends holding its running column. -/
theorem kernelRun_last (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0 i) (hc1 : cond1 i)
    (x0 : Vec F S1024x128 .bf16) (x1 : Vec F S2048x128 .bf16) (l0 : Vec F S1024x1 .i32) (l1 : Vec F S1x2048 .i32) (a0 a1 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare l0 ∗ owns (c : Thread nD τ) arg5 fullShare l1 ∗ (∃ d, owns (c : Thread nD τ) arg6 fullShare d) ∗ (∃ d, owns (c : Thread nD τ) arg7 fullShare d) ∗ owns (c : Thread nD τ) arg8 fullShare a0 ∗ owns (c : Thread nD τ) arg9 fullShare a1
        ∗ (iprop(owns (c : Thread nD τ) arg2 fullShare x0 ∗ owns (c : Thread nD τ) arg3 fullShare x1 ∗ owns (c : Thread nD τ) arg4 fullShare l0 ∗ owns (c : Thread nD τ) arg5 fullShare l1 ∗ owns (c : Thread nD τ) arg6 fullShare (posStep i x0 x1 l0 l1 a0) ∗ owns (c : Thread nD τ) arg7 fullShare (totStep i x0 x1 a1) ∗ owns (c : Thread nD τ) arg8 fullShare (posStep i x0 x1 l0 l1 a0) ∗ owns (c : Thread nD τ) arg9 fullShare (totStep i x0 x1 a1)) -∗ K ⟨⟩))
      ⊢ wp frame (wpE (defs₀ (F := F)) Variants.none c none) E (cc0__contrastive_kernel i arg2 harg2 arg3 harg3 arg4 harg4 arg5 harg5 arg6 harg6 arg7 harg7 arg8 harg8 arg9 harg9) K := by
  simp only [cc0__contrastive_kernel_eq_skeleton]; unfold cc0__contrastive_kernel_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5
  obtain rfl := harg8.eq_unread hf8; obtain rfl := harg9.eq_unread hf9
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    rw [View.read_writes_eq_canon _ _ _ (fun y => ⟨_, List.Mem.head _, View.mem_set_unit_zero hz2 inb_S1024x1_S1024x1_0_0 y⟩)]
    rw [View.canon_unit_zero hz2]
    simp only [View.readAt_eq_ld, Memref.IsWhole.read_unread, View.ld_unit_zero (S := S1024x1) hz2, View.ld_unit_zero (S := S1024x128) hz2, View.ld_unit_zero (S := S2048x128) hz2, View.ld_unit_zero (S := S1x2048) hz2, View.readCov_unit_zero (S := S1024x1) _ hz2]
    rfl
  isplitl [H7]
  · iexists _; isplitr
    swap; · iexact H7
    ipureintro
    sl_unfold_words
    rw [View.read_writes_eq_canon _ _ _ (fun y => ⟨_, List.Mem.head _, View.mem_set_unit_zero hz2 inb_S1024x1_S1024x1_0_0 y⟩)]
    rw [View.canon_unit_zero hz2]
    simp only [View.readAt_eq_ld, Memref.IsWhole.read_unread, View.ld_unit_zero (S := S1024x1) hz2, View.ld_unit_zero (S := S1024x128) hz2, View.ld_unit_zero (S := S2048x128) hz2, View.ld_unit_zero (S := S1x2048) hz2, View.readCov_unit_zero (S := S1024x1) _ hz2]
    rfl
  isplitl [H8]
  · iexists _; isplitr
    swap; · iexact H8
    ipureintro
    sl_unfold_words
    rw [View.read_writes_eq_canon _ _ _ (fun y => ⟨_, List.Mem.head _, View.mem_set_unit_zero hz2 inb_S1024x1_S1024x1_0_0 y⟩)]
    rw [View.canon_unit_zero hz2]
    simp only [View.readAt_eq_ld, Memref.IsWhole.read_unread, View.ld_unit_zero (S := S1024x1) hz2, View.ld_unit_zero (S := S1024x128) hz2, View.ld_unit_zero (S := S2048x128) hz2, View.ld_unit_zero (S := S1x2048) hz2, View.readCov_unit_zero (S := S1024x1) _ hz2]
    rfl
  iexists _; isplitr
  swap; · iexact H9
  ipureintro
  sl_unfold_words
  rw [View.read_writes_eq_canon _ _ _ (fun y => ⟨_, List.Mem.head _, View.mem_set_unit_zero hz2 inb_S1024x1_S1024x1_0_0 y⟩)]
  rw [View.canon_unit_zero hz2]
  simp only [View.readAt_eq_ld, Memref.IsWhole.read_unread, View.ld_unit_zero (S := S1024x1) hz2, View.ld_unit_zero (S := S1024x128) hz2, View.ld_unit_zero (S := S2048x128) hz2, View.ld_unit_zero (S := S1x2048) hz2, View.readCov_unit_zero (S := S1024x1) _ hz2]
  rfl

end Cert.KernelIdeal.Hand

end
-- ==== Proof.KIFrame.lean ====
/-
  The pipeline's proof data for the contrastive-sums kernel and its body obligation. Between points the
  kernel carries its two running columns in scratch: the region invariant after the point of position n
  holds them at `accAt … n`. The two output blocks are stored only at the last column tile, where they are
  written back; at the other points the body hands them back untouched.
-/
import proofs.«400339_j87479893885192_3_alg».proof.Proof.KIRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## Where the output windows are idle, and where they are written back -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Off the last column tile the body stores nothing into the output blocks, -/
theorem idleAt0_4 : ∀ t : Fin cfg0.N, ¬cond1 (grid0.coords t) → cfg0.idle 4 (grid0.coords t) = true := by decide +kernel
theorem idleAt0_5 : ∀ t : Fin cfg0.N, ¬cond1 (grid0.coords t) → cfg0.idle 5 (grid0.coords t) = true := by decide +kernel
/-- and they are not written back there; -/
theorem noFlush0_4 : ∀ t : Fin cfg0.N, ¬cond1 (grid0.coords t) → (cfg0.win 4).flush t = false := by decide +kernel
theorem noFlush0_5 : ∀ t : Fin cfg0.N, ¬cond1 (grid0.coords t) → (cfg0.win 5).flush t = false := by decide +kernel
/-- at the last column tile it stores them whole. -/
theorem liveAt0_4 : ∀ t : Fin cfg0.N, cond1 (grid0.coords t) → cfg0.idle 4 (grid0.coords t) = false := by decide +kernel
theorem liveAt0_5 : ∀ t : Fin cfg0.N, cond1 (grid0.coords t) → cfg0.idle 5 (grid0.coords t) = false := by decide +kernel

/-! ## The staging memrefs of a point, and the two scratch columns -/

abbrev ms0_0 (t : Fin cfg0.N) : Memref sig .tc .vmem S1024x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1 .f32 := win0_5.stage (cfg0.slots t 5)
abbrev hs0_5 (t : Fin cfg0.N) : (ms0_5 t).IsWhole := hstage0_5 ((cfg0.slots t 5).cast nbuf0_5)
/-- The two running columns' buffers. -/
abbrev scM0 : Memref sig .tc .vmem S1024x1 .f32 := Memref.whole cc0_scratch0
abbrev scM1 : Memref sig .tc .vmem S1024x1 .f32 := Memref.whole cc0_scratch1

/-- The class invariant spelt over the two scratch columns: each owned at some contents, and the generator
    register at some state. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

section AtEntry
variable (V : (c : Dev nD) → (b : Ref sig .tc) → Buf (Elt F) ((c : Thread nD τ).loc b))

/-! ## Each input window's staging buffer holds its block at every point -/

theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The region invariant, point by point -/

/-- Before the first point the class invariant (the scratch at anything); after the point of position n
    the two running columns at `accAt … n`. -/
def PhiS (c : Dev nD) : (n : ℕ) → n ≤ cfg0.N → sProp 𝕄
  | 0, _ => Pipeline.ΦA spec0 c
  | n + 1, hn => iprop(iprop(owns (c : Thread nD τ) scM0 fullShare ((accAt V c n hn).1) ∗ owns (c : Thread nD τ) scM1 fullShare ((accAt V c n hn).2)) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare ((accAt V c n hn).1) ∗ owns (c : Thread nD τ) scM1 fullShare ((accAt V c n hn).2)) ∗ (∃ r, prngReg c r)) := rfl

theorem PhiS_pos (c : Dev nD) (n : ℕ) (h : n ≤ cfg0.N) (hz : n ≠ 0) :
    PhiS V c n h = iprop(iprop(owns (c : Thread nD τ) scM0 fullShare ((accAt V c (n - 1) (by omega)).1) ∗ owns (c : Thread nD τ) scM1 fullShare ((accAt V c (n - 1) (by omega)).2)) ∗ (∃ r, prngReg c r)) := by
  cases n with
  | zero => exact absurd rfl hz
  | succ n => rfl

/-! ## The proof data -/

/-- How the embeddings' array, which two input windows read, is shared between them. -/
def shares : Fin cfg0.W → PosShare TreeShare
  | ⟨0, _⟩ => fullShare.left
  | ⟨1, _⟩ => fullShare.right
  | ⟨2, _⟩ => fullShare
  | ⟨3, _⟩ => fullShare
  | ⟨4, _⟩ => fullShare
  | ⟨5, _⟩ => fullShare

/-- The arrays as the region finds them; after the body each input's buffer at its block, the two output blocks
    at the running columns (consulted only at the last column tile, where the body copies them there). -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => (accAt V c t.val t.isLt).1
    | ⟨5, _⟩ => (accAt V c t.val t.isLt).2
  Φ t := PhiS V c t.val (Nat.le_of_lt_succ t.isLt)
  q := shares
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = iblk V c 2 t := by dsimp only [dat]
theorem after0_3 (c : Dev nD) (t : Fin cfg0.N) : (dat V c).after 3 t = iblk V c 3 t := by dsimp only [dat]
theorem after0_4 (c : Dev nD) (t : Fin cfg0.N) : (dat V c).after 4 t = (accAt V c t.val t.isLt).1 := by dsimp only [dat]
theorem after0_5 (c : Dev nD) (t : Fin cfg0.N) : (dat V c).after 5 t = (accAt V c t.val t.isLt).2 := by dsimp only [dat]

theorem before0_0 (c : Dev nD) (t : Fin cfg0.N) (d) : (dat V c).before 0 t d = iblk V c 0 t :=
  before0_0_of V (dat V c) (A_eq V c 0) (after0_0 V c) t d
theorem before0_1 (c : Dev nD) (t : Fin cfg0.N) (d) : (dat V c).before 1 t d = iblk V c 1 t :=
  before0_1_of V (dat V c) (A_eq V c 1) (after0_1 V c) t d
theorem before0_2 (c : Dev nD) (t : Fin cfg0.N) (d) : (dat V c).before 2 t d = iblk V c 2 t :=
  before0_2_of V (dat V c) (A_eq V c 2) (after0_2 V c) t d
theorem before0_3 (c : Dev nD) (t : Fin cfg0.N) (d) : (dat V c).before 3 t d = iblk V c 3 t :=
  before0_3_of V (dat V c) (A_eq V c 3) (after0_3 V c) t d

end AtEntry

section Body
variable (V : (c : Dev nD) → (b : Ref sig .tc) → Buf (Elt F) ((c : Thread nD τ).loc b))

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d))
    ∗ (∃ d, owns (c : Thread nD τ) (ms0_4 t) fullShare ((dat V c).before 4 t d))
    ∗ (∃ d, owns (c : Thread nD τ) (ms0_5 t) fullShare ((dat V c).before 5 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

theorem leaves0_0 (c : Dev nD) (t : Fin cfg0.N) : (dat V c).leavesExact 0 t = owns (c : Thread nD τ) (ms0_0 t) fullShare (iblk V c 0 t) := by
  unfold Dat.leavesExact; rw [liveAt0_0 t, after0_0]
theorem leaves0_1 (c : Dev nD) (t : Fin cfg0.N) : (dat V c).leavesExact 1 t = owns (c : Thread nD τ) (ms0_1 t) fullShare (iblk V c 1 t) := by
  unfold Dat.leavesExact; rw [liveAt0_1 t, after0_1]
theorem leaves0_2 (c : Dev nD) (t : Fin cfg0.N) : (dat V c).leavesExact 2 t = owns (c : Thread nD τ) (ms0_2 t) fullShare (iblk V c 2 t) := by
  unfold Dat.leavesExact; rw [liveAt0_2 t, after0_2]
theorem leaves0_3 (c : Dev nD) (t : Fin cfg0.N) : (dat V c).leavesExact 3 t = owns (c : Thread nD τ) (ms0_3 t) fullShare (iblk V c 3 t) := by
  unfold Dat.leavesExact; rw [liveAt0_3 t, after0_3]

set_option maxHeartbeats 4800000 in
/-- The body at any point: the input memrefs hold their blocks; the closed forms say which case the point is in;
    the invariant hands the body the running columns at what the point before left (at anything at the first point)
    and takes them back at this point's. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3]
  rw [show (dat V c).owesAt () t.succ = (dat V c).owesAt () t.castSucc from rfl]
  rw [show (dat V c).Φ t.succ = PhiS V c (t.val + 1) t.isLt from rfl, PhiS_succ]
  rw [leaves0_0, leaves0_1, leaves0_2, leaves0_3]
  have hN : t.val < 32 := lt_of_lt_of_eq t.isLt (show cfg0.N = 32 from N_0)
  by_cases h0 : t.val % 4 = 0
  · have h1 : ¬ t.val % 4 = 3 := by omega
    have hc0 : cond0 (grid0.coords t) := (hcond0 t).mpr h0
    have hc1 : ¬cond1 (grid0.coords t) := fun h => h1 ((hcond1 t).mp h)
    rw [Dat.leavesExact_idle (dat V c) 4 t (idleAt0_4 t hc1) (noFlush0_4 t hc1),
      Dat.leavesExact_idle (dat V c) 5 t (idleAt0_5 t hc1) (noFlush0_5 t hc1)]
    rw [accAt_first V c t h0]
    have hΦ : (dat V c).Φ t.castSucc ⊢ (iprop(iprop((∃ d, owns (c : Thread nD τ) scM0 fullShare d) ∗ (∃ d, owns (c : Thread nD τ) scM1 fullShare d)) ∗ (∃ r, prngReg c r)) : sProp 𝕄) := by
      by_cases hz : t.val = 0
      · rw [PhiS_castSucc V c t, PhiS_zero V c _ _ hz, PhiA0_eq]
      · rw [PhiS_castSucc V c t, PhiS_pos V c _ _ hz]
        iintro ⟨⟨HS0, HS1⟩, Hg⟩
        isplitr [Hg]
        · isplitl [HS0]
          · iexists _; iexact HS0
          · iexists _; iexact HS1
        · iexact Hg
    iintro ⟨HΦ, Ho, ⟨%d0, H0⟩, ⟨%d1, H1⟩, ⟨%d2, H2⟩, ⟨%d3, H3⟩, ⟨%d4, H4⟩, ⟨%d5, H5⟩⟩
    ihave HΦ' := hΦ $$ HΦ
    icases HΦ' with ⟨⟨HS0, HS1⟩, Hg⟩
    iapply (kernelRun_first c (grid0.coords t) _ _ _ _ _ _ _ _ _ _ _ _ _ _ _ _ hc0 hc1 (iblk V c 0 t) (iblk V c 1 t) (iblk V c 2 t) (iblk V c 3 t) _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1 Hg]
    · isplitr [Hg]
      · isplitl [HS0]
        · iexact HS0
        · iexact HS1
      · iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · have hz : t.val ≠ 0 := fun h => h0 (by rw [h])
    have hc0 : ¬cond0 (grid0.coords t) := fun h => h0 ((hcond0 t).mp h)
    rw [accAt_next V c t h0]
    rw [PhiS_castSucc V c t, PhiS_pos V c _ _ hz]
    by_cases h1 : t.val % 4 = 3
    · have hc1 : cond1 (grid0.coords t) := (hcond1 t).mpr h1
      rw [show (dat V c).leavesExact 4 t = owns (c : Thread nD τ) (ms0_4 t) fullShare ((dat V c).after 4 t) from by
        unfold Dat.leavesExact; rw [liveAt0_4 t hc1], after0_4]
      rw [show (dat V c).leavesExact 5 t = owns (c : Thread nD τ) (ms0_5 t) fullShare ((dat V c).after 5 t) from by
        unfold Dat.leavesExact; rw [liveAt0_5 t hc1], after0_5]
      rw [accAt_next V c t h0]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply (kernelRun_last c (grid0.coords t) _ _ _ _ _ _ _ _ _ _ _ _ _ _ _ _ hc0 hc1 (iblk V c 0 t) (iblk V c 1 t) (iblk V c 2 t) (iblk V c 3 t) _ _ Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, H4, H5, HS0, HS1⟩
      isplitl [HS0 HS1 Hg]
      · isplitr [Hg]
        · isplitl [HS0]
          · iexact HS0
          · iexact HS1
        · iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬cond1 (grid0.coords t) := fun h => h1 ((hcond1 t).mp h)
      rw [Dat.leavesExact_idle (dat V c) 4 t (idleAt0_4 t hc1) (noFlush0_4 t hc1),
        Dat.leavesExact_idle (dat V c) 5 t (idleAt0_5 t hc1) (noFlush0_5 t hc1)]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply (kernelRun_mid c (grid0.coords t) _ _ _ _ _ _ _ _ _ _ _ _ _ _ _ _ hc0 hc1 (iblk V c 0 t) (iblk V c 1 t) (iblk V c 2 t) (iblk V c 3 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hg]
      · isplitr [Hg]
        · isplitl [HS0]
          · iexact HS0
          · iexact HS1
        · iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]

/-- After the last point the invariant gives the class invariant back: the running columns' contents are forgotten. -/
theorem hout (c : Dev nD) : (dat V c).Φ (Fin.last cfg0.N) ⊢ Pipeline.ΦA spec0 c := by
  have ht : (Fin.last cfg0.N).val ≠ 0 := by rw [Fin.val_last]; have : cfg0.N = 32 := N_0; omega
  rw [show (dat V c).Φ (Fin.last cfg0.N) = PhiS V c (Fin.last cfg0.N).val (Nat.le_of_lt_succ (Fin.last cfg0.N).isLt) from rfl,
    PhiS_pos V c _ _ ht, PhiA0_eq]
  iintro ⟨⟨HS0, HS1⟩, Hg⟩
  isplitr [Hg]
  · isplitl [HS0]
    · iexists _; iexact HS0
    · iexists _; iexact HS1
  · iexact Hg

end Body

end Cert.KernelIdeal.Hand

end
-- ==== Proof.KILaunch.lean ====
/-
  The run of the contrastive-sums program: three stretches of host operations (the embeddings normalised
  and rounded, the labels reshaped), the kernel region, three more stretches (the per-row loss and the
  per-class means). The region's two row windows read ONE array, the normalised embeddings: its
  points-to is split in two halves at the region's entry, one for each window, and joined again at its exit.
  The thread state between segments is every unscoped buffer at the boundary's contents.
-/
import proofs.«400339_j87479893885192_3_alg».proof.Proof.KIFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The region's arrays out of the core's unscoped buffers, and back -/

section Arrays
variable (V : (c : Dev nD) → (b : Ref sig .tc) → Buf (Elt F) ((c : Thread nD τ).loc b))

/-- The distinct buffers behind the six windows' arrays. -/
theorem arrImage : Finset.univ.image (Pipeline.arrRef spec0) = [main_v7, main_v9, main_v10, main_v11_0, main_v11_1].toFinset := by decide

/-- The buffers behind the arrays, one by one. -/
theorem arrBufs_eq (c : Dev nD) (V' : (b : Ref sig .tc) → Buf (Elt F) ((c : Thread nD τ).loc b)) :
    (Pipeline.arrBufs spec0 c V' : sProp 𝕄)
      = iprop((((c : Thread nD τ).loc main_v7) ↦{fullShare} V' main_v7) ∗ (((c : Thread nD τ).loc main_v9) ↦{fullShare} V' main_v9)
          ∗ (((c : Thread nD τ).loc main_v10) ↦{fullShare} V' main_v10) ∗ (((c : Thread nD τ).loc main_v11_0) ↦{fullShare} V' main_v11_0)
          ∗ (((c : Thread nD τ).loc main_v11_1) ↦{fullShare} V' main_v11_1)) :=
  bigSep_eq_bigSepL_of_eq [main_v7, main_v9, main_v10, main_v11_0, main_v11_1] arrImage (by decide) _

/-- ENTRY: the buffers behind the arrays, each whole at the entry contents, are the proof data's arrays: the
    embeddings' buffer split between the two windows that read it. -/
theorem arrays_of_arrBufs (c : Dev nD) :
    (Pipeline.arrBufs spec0 c (V c) : sProp 𝕄) ⊢ (dat V c).arrays ((dat V c).arrAt · 0) := by
  unfold Dat.arrays
  rw [arrBufs_eq, bigSep_W0]
  iintro ⟨H7, H9, H10, H110, H111⟩
  ihave H7' := (pointsTo_share (PosShare.mem_left_op_right fullShare)).1 $$ H7
  icases H7' with ⟨H7a, H7b⟩
  isplitl [H7a]
  · rw [(arr_whole0 0).set_eq_univ]; iexact H7a
  isplitl [H7b]
  · rw [(arr_whole0 1).set_eq_univ]; iexact H7b
  isplitl [H9]
  · rw [(arr_whole0 2).set_eq_univ]; iexact H9
  isplitl [H10]
  · rw [(arr_whole0 3).set_eq_univ]; iexact H10
  isplitl [H110]
  · rw [(arr_whole0 4).set_eq_univ]; iexact H110
  · rw [(arr_whole0 5).set_eq_univ]; iexact H111

/-- EXIT: the arrays at what the pipeline leaves — the inputs as entered, the two results at their
    write-backs — are the buffers behind them at any contents `V'` that has the results there and agrees
    with `V` on the inputs. -/
theorem arrBufs_of_arrays (c : Dev nD) (V' : (b : Ref sig .tc) → Buf (Elt F) ((c : Thread nD τ).loc b))
    (h7 : V' main_v7 = V c main_v7) (h9 : V' main_v9 = V c main_v9) (h10 : V' main_v10 = V c main_v10)
    (h110 : V' main_v11_0 = (dat V c).arrAt 4 cfg0.N) (h111 : V' main_v11_1 = (dat V c).arrAt 5 cfg0.N) :
    (dat V c).arrays ((dat V c).arrAt · cfg0.N) ⊢ (Pipeline.arrBufs spec0 c V' : sProp 𝕄) := by
  unfold Dat.arrays
  rw [arrBufs_eq, bigSep_W0]
  beta_reduce
  rw [(dat V c).arrAt_in 0 rfl, (dat V c).arrAt_in 1 rfl, (dat V c).arrAt_in 2 rfl, (dat V c).arrAt_in 3 rfl,
    h7, h9, h10, h110, h111]
  iintro ⟨H7a, H7b, H9, H10, H110, H111⟩
  isplitl [H7a H7b]
  · iapply (pointsTo_share (PosShare.mem_left_op_right fullShare)).2
    isplitl [H7a]
    · rw [(arr_whole0 0).set_eq_univ]; iexact H7a
    · rw [(arr_whole0 1).set_eq_univ]; iexact H7b
  isplitl [H9]
  · rw [(arr_whole0 2).set_eq_univ]; iexact H9
  isplitl [H10]
  · rw [(arr_whole0 3).set_eq_univ]; iexact H10
  isplitl [H110]
  · rw [(arr_whole0 4).set_eq_univ]; iexact H110
  · rw [(arr_whole0 5).set_eq_univ]; iexact H111

end Arrays

/-! ## The buffer contents at each segment boundary: a fold through @main -/

section Run
variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the transposition and the reshape of the embeddings, -/
abbrev W1 : Dev nD → Valuation τ sig (Elt F) := fun c => StableHlo.after hostOps0 (W0 m ρ c)
/-- after the rows' norms, -/
abbrev W2 : Dev nD → Valuation τ sig (Elt F) := fun c => StableHlo.after hostOps0_1 (W1 m ρ c)
/-- after the normalisation and the labels' reshapes: the region's entry. -/
abbrev W3 : Dev nD → Valuation τ sig (Elt F) := fun c => StableHlo.after hostOps0_2 (W2 m ρ c)
/-- The same read at the TensorCore's references (what the region's proof data take). -/
abbrev V3 : (c : Dev nD) → (b : Ref sig .tc) → Buf (Elt F) ((c : Thread nD τ).loc b) := fun c b => W3 m ρ c b

/-- At the region's exit: the two results at what the pipeline's write-backs leave, every other buffer as entered. -/
def W4 (c : Dev nD) : Valuation τ sig (Elt F) :=
  Function.update (Function.update (W3 m ρ c) (Proc.devRef .tc main_v11_0) ((dat (V3 m ρ) c).arrAt 4 cfg0.N))
    (Proc.devRef .tc main_v11_1) ((dat (V3 m ρ) c).arrAt 5 cfg0.N)

theorem W4_out0 (c : Dev nD) : W4 m ρ c (Proc.devRef .tc main_v11_0) = (dat (V3 m ρ) c).arrAt 4 cfg0.N := by
  unfold W4
  rw [Function.update_of_ne (StableHlo.devRef_ne_of_ne (by decide)), Function.update_self]

theorem W4_out1 (c : Dev nD) : W4 m ρ c (Proc.devRef .tc main_v11_1) = (dat (V3 m ρ) c).arrAt 5 cfg0.N := by
  unfold W4
  rw [Function.update_self]

theorem W4_of_ne (c : Dev nD) (b : Ref sig .tc) (h0 : b ≠ main_v11_0) (h1 : b ≠ main_v11_1) :
    W4 m ρ c (Proc.devRef .tc b) = W3 m ρ c (Proc.devRef .tc b) := by
  unfold W4
  rw [Function.update_of_ne (StableHlo.devRef_ne_of_ne h1), Function.update_of_ne (StableHlo.devRef_ne_of_ne h0)]

/-- The same read at the TensorCore's references. -/
abbrev V4 : (c : Dev nD) → (b : Ref sig .tc) → Buf (Elt F) ((c : Thread nD τ).loc b) := fun c b => W4 m ρ c b

/-- After the per-row losses and the segment sums, -/
abbrev W5 : Dev nD → Valuation τ sig (Elt F) := fun c => StableHlo.after hostOps1 (W4 m ρ c)
/-- after the select of the classes present, -/
abbrev W6 : Dev nD → Valuation τ sig (Elt F) := fun c => StableHlo.after hostOps1_1 (W5 m ρ c)
/-- after the mean over them: the return. -/
abbrev W7 : Dev nD → Valuation τ sig (Elt F) := fun c => StableHlo.after hostOps1_2 (W6 m ρ c)

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state: every unscoped buffer at the return's contents, the generator register at some state. -/
abbrev Tₙ (c : Dev nD) : sProp 𝕄 := iprop(StableHlo.held (c : Thread nD τ) (Pipeline.ucRefs τ sig) (W7 m ρ c) ∗ ∃ r, prngReg c r)

/-! ## The region as a segment -/

/-- ENTRY, over the thread state: the unscoped buffers at the entry contents are the proof data's arrays and the rest. -/
theorem entry_split (c : Dev nD) :
    (StableHlo.held (c : Thread nD τ) (Pipeline.ucRefs τ sig) (W3 m ρ c) : sProp 𝕄)
      ⊢ iprop((dat (V3 m ρ) c).arrays ((dat (V3 m ρ) c).arrAt · 0) ∗ Pipeline.unscopedRest spec0 c (V3 m ρ c)) := by
  rw [← Pipeline.unscopedBufs_held (Ix := Unit) (Name := ℕ) (U := UR sig nD τ) (Lvl := ℕ) c (W3 m ρ c),
    Pipeline.PerCore.unscopedBufs_split₀ (fun _ => cfgs) (0 : Fin 1) c winFacts₀0.arr_unscoped (V3 m ρ c)]
  exact sep_mono (arrays_of_arrBufs (V3 m ρ) c) .rfl

/-- EXIT, over the thread state: the arrays as the pipeline leaves them and the rest are the unscoped buffers at the
    exit contents. -/
theorem exit_join (c : Dev nD) :
    iprop((dat (V3 m ρ) c).arrays ((dat (V3 m ρ) c).arrAt · cfg0.N) ∗ Pipeline.unscopedRest spec0 c (V3 m ρ c))
      ⊢ (StableHlo.held (c : Thread nD τ) (Pipeline.ucRefs τ sig) (W4 m ρ c) : sProp 𝕄) := by
  rw [← Pipeline.unscopedBufs_held (Ix := Unit) (Name := ℕ) (U := UR sig nD τ) (Lvl := ℕ) c (W4 m ρ c),
    Pipeline.PerCore.unscopedBufs_split₀ (fun _ => cfgs) (0 : Fin 1) c winFacts₀0.arr_unscoped (V4 m ρ c)]
  refine sep_mono (arrBufs_of_arrays (V3 m ρ) c (V4 m ρ c) (W4_of_ne m ρ c main_v7 (by decide) (by decide))
    (W4_of_ne m ρ c main_v9 (by decide) (by decide)) (W4_of_ne m ρ c main_v10 (by decide) (by decide))
    (W4_out0 m ρ c) (W4_out1 m ρ c)) (Entails.of_eq ?_)
  unfold Pipeline.unscopedRest
  refine bigSep_congr fun b hb => ?_
  have hb' := (Finset.mem_sdiff.mp hb).2
  exact congrArg (fun f => (((c : Thread nD τ).loc b) ↦{fullShare} f : sProp 𝕄))
    (W4_of_ne m ρ c b (fun e => hb' (Finset.mem_image.mpr ⟨4, Finset.mem_univ _, e ▸ rfl⟩))
      (fun e => hb' (Finset.mem_image.mpr ⟨5, Finset.mem_univ _, e ▸ rfl⟩))).symm

set_option backward.isDefEq.respectTransparency.types false in
/-- THE REGION over the thread state: entered from every unscoped buffer at `W3`, left at `W4`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    iintro ⟨⟨Hub, Hp, HO⟩, -, -⟩
    ihave H := (entry_split m ρ c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (hin (V3 m ρ) c)
    unfold Pipeline.ΦA
    iintro ⟨Hp, -, Hr⟩
    isplitl [Hr]; · iexact Hr
    iexact Hp
  hout c := by
    refine (hout (V3 m ρ) c).trans ?_
    rw [Pipeline.ownSems0_none]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit_join m ρ c)
      isplitl [Ha]
      · iexact Ha
      · iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .host (hseg hostOps1_1 hostOps1_1_sub hostOps1_1_fresh (W5 m ρ)),
    .host (hseg hostOps1_2 hostOps1_2_sub hostOps1_2_fresh (W6 m ρ)) ]

theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main on the
    TensorCores terminates, nothing faulting, and every unscoped buffer ends at the last boundary's contents `W7`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (W7 m ρ c) ∗ R c) : sProp 𝕄) ⊢ _
      iintro ⟨Hh, Hp, HO⟩
      isplitr [HO]
      · isplitl [Hh]
        · iexact Hh
        · iexact Hp
      · iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

end Run

end Cert.KernelIdeal.Hand

end
-- ==== Proof.KIArgs.lean ====
/-
  The program's two arguments end as they were launched: no host operation before or after the kernel region
  writes an argument's buffer, and the region writes only its two result arrays.
-/
import proofs.«400339_j87479893885192_3_alg».proof.Proof.KILaunch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- A stretch of host operations none of which writes the buffer `b` leaves it as it was. -/
local macro "keeps" : tactic => `(tactic| (
  refine StableHlo.after_of_forall_not_mem _ _ (List.forall_iff_forall_mem.mp ?_)
  simp only [hostOps0, hostOps0_1, hostOps0_2, hostOps1, hostOps1_1, hostOps1_2, List.Forall, StableHlo.nullary_writes,
    StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

/-- The host stretches before the region write neither argument. -/
theorem pre_arg0 (V : Valuation τ sig (Elt F)) :
    StableHlo.after hostOps0_2 (StableHlo.after hostOps0_1 (StableHlo.after hostOps0 V)) (Proc.devRef .tc main_arg0)
      = V (Proc.devRef .tc main_arg0) :=
  calc StableHlo.after hostOps0_2 (StableHlo.after hostOps0_1 (StableHlo.after hostOps0 V)) (Proc.devRef .tc main_arg0)
    _ = StableHlo.after hostOps0_1 (StableHlo.after hostOps0 V) (Proc.devRef .tc main_arg0) := by keeps
    _ = StableHlo.after hostOps0 V (Proc.devRef .tc main_arg0) := by keeps
    _ = V (Proc.devRef .tc main_arg0) := by keeps

theorem pre_arg1 (V : Valuation τ sig (Elt F)) :
    StableHlo.after hostOps0_2 (StableHlo.after hostOps0_1 (StableHlo.after hostOps0 V)) (Proc.devRef .tc main_arg1)
      = V (Proc.devRef .tc main_arg1) :=
  calc StableHlo.after hostOps0_2 (StableHlo.after hostOps0_1 (StableHlo.after hostOps0 V)) (Proc.devRef .tc main_arg1)
    _ = StableHlo.after hostOps0_1 (StableHlo.after hostOps0 V) (Proc.devRef .tc main_arg1) := by keeps
    _ = StableHlo.after hostOps0 V (Proc.devRef .tc main_arg1) := by keeps
    _ = V (Proc.devRef .tc main_arg1) := by keeps

/-- The host stretches after the region write neither argument. -/
theorem post_arg0 (V : Valuation τ sig (Elt F)) :
    StableHlo.after hostOps1_2 (StableHlo.after hostOps1_1 (StableHlo.after hostOps1 V)) (Proc.devRef .tc main_arg0)
      = V (Proc.devRef .tc main_arg0) :=
  calc StableHlo.after hostOps1_2 (StableHlo.after hostOps1_1 (StableHlo.after hostOps1 V)) (Proc.devRef .tc main_arg0)
    _ = StableHlo.after hostOps1_1 (StableHlo.after hostOps1 V) (Proc.devRef .tc main_arg0) := by keeps
    _ = StableHlo.after hostOps1 V (Proc.devRef .tc main_arg0) := by keeps
    _ = V (Proc.devRef .tc main_arg0) := by keeps

theorem post_arg1 (V : Valuation τ sig (Elt F)) :
    StableHlo.after hostOps1_2 (StableHlo.after hostOps1_1 (StableHlo.after hostOps1 V)) (Proc.devRef .tc main_arg1)
      = V (Proc.devRef .tc main_arg1) :=
  calc StableHlo.after hostOps1_2 (StableHlo.after hostOps1_1 (StableHlo.after hostOps1 V)) (Proc.devRef .tc main_arg1)
    _ = StableHlo.after hostOps1_1 (StableHlo.after hostOps1 V) (Proc.devRef .tc main_arg1) := by keeps
    _ = StableHlo.after hostOps1 V (Proc.devRef .tc main_arg1) := by keeps
    _ = V (Proc.devRef .tc main_arg1) := by keeps

section Run
variable (m : (ℓ : Loc nD τ sig) → Buf (Elt F) ℓ) (ρ : Dev nD → PrngReg)

/-- The first argument at the return is the launch's. -/
theorem W7_main_arg0 (c : Dev nD) : W7 m ρ c (Proc.devRef .tc main_arg0) = m ((c : Thread nD τ).loc main_arg0) :=
  calc W7 m ρ c (Proc.devRef .tc main_arg0)
    _ = W4 m ρ c (Proc.devRef .tc main_arg0) := post_arg0 (W4 m ρ c)
    _ = W3 m ρ c (Proc.devRef .tc main_arg0) := W4_of_ne m ρ c main_arg0 (by decide) (by decide)
    _ = W0 m ρ c (Proc.devRef .tc main_arg0) := pre_arg0 (W0 m ρ c)
    _ = m ((c : Thread nD τ).loc main_arg0) := rfl

/-- The second argument at the return is the launch's. -/
theorem W7_main_arg1 (c : Dev nD) : W7 m ρ c (Proc.devRef .tc main_arg1) = m ((c : Thread nD τ).loc main_arg1) :=
  calc W7 m ρ c (Proc.devRef .tc main_arg1)
    _ = W4 m ρ c (Proc.devRef .tc main_arg1) := post_arg1 (W4 m ρ c)
    _ = W3 m ρ c (Proc.devRef .tc main_arg1) := W4_of_ne m ρ c main_arg1 (by decide) (by decide)
    _ = W0 m ρ c (Proc.devRef .tc main_arg1) := pre_arg1 (W0 m ρ c)
    _ = m ((c : Thread nD τ).loc main_arg1) := rfl

end Run

end Cert.KernelIdeal.Hand

end
-- ==== Proof.RefRun.lean ====
import proofs.«400339_j87479893885192_3_alg».proof.Proof.RefRunP
import proofs.«400339_j87479893885192_3_alg».proof.Proof.RefReadP

/-! The reference's run and its stage-by-stage reading lemmas, gathered for the modules that
    compare the reference's row sums with the kernel's. -/
-- ==== Proof.RefTail.lean ====
/-
  The reference's closing stages, from the two masked row sums to the scalar result, as ONE function of the row
  sums and the labels: add a small positive constant to the total row sum, divide the positive row sum by it, take
  the negated logarithm row by row, sum the rows of each label and count them, divide each label's sum by its
  count (at least one), keep the labels that occur, and average over the labels that occur. The reference's run
  is restated over this function, so that a program with the same closing stages is compared with the reference
  on the row sums alone.
-/
import proofs.«400339_j87479893885192_3_alg».proof.Proof.RefRun

noncomputable section

namespace Cert.ReferenceIdeal.RefValue

open Cert.ReferenceIdeal Cert.ReferenceIdeal.Gen Idealize.ShloMosaic Idealize.ShloMosaic.TcCoe Idealize.SL.Sem Idealize.ShloMosaic.StableHlo

/-- The closing stages of the reference, in program order, over the positive row sums `pos`, the total row sums
    `tot` and the labels `lab`: `-log (pos / (tot + ε))` per row, the per-label sums and counts of it, the mean
    of each label that occurs, and the mean of those means. -/
def tail (pos tot : (⟨S8192, .f32⟩ : BufTy).Contents (Elt Ideal)) (lab : (⟨S8192, .i32⟩ : BufTy).Contents (Elt Ideal)) :
    (⟨S_, .f32⟩ : BufTy).Contents (Elt Ideal) :=
  -- the small positive constant, on every row
  have v37 : (⟨S8192, .f32⟩ : BufTy).Contents (Elt Ideal) :=
    broadcastInDim S8192 ![] bcast_S_S8192 (constant (F := Ideal) S_ .f32 0x358637BD#32)
  -- total row sum plus the constant
  have v38 : (⟨S8192, .f32⟩ : BufTy).Contents (Elt Ideal) := addf (F := Ideal) (φ := .f32) tot v37
  -- the ratio of the two row sums
  have v39 : (⟨S8192, .f32⟩ : BufTy).Contents (Elt Ideal) := Host.divf (F := Ideal) (φ := .f32) pos v38
  -- its logarithm, negated: the row's loss
  have v40 : (⟨S8192, .f32⟩ : BufTy).Contents (Elt Ideal) := Host.log (F := Ideal) (φ := .f32) v39
  have v41 : (⟨S8192, .f32⟩ : BufTy).Contents (Elt Ideal) := Host.negf (F := Ideal) (φ := .f32) v40
  -- the per-label sums of the rows' losses, from zero
  have v42 : (⟨S4, .f32⟩ : BufTy).Contents (Elt Ideal) :=
    broadcastInDim S4 ![] bcast_S_S4 (constant (F := Ideal) S_ .f32 0x00000000#32)
  have v43 : (⟨S8192x1, .i32⟩ : BufTy).Contents (Elt Ideal) := broadcastInDim S8192x1 ![0] bcast_S8192_S8192x1_0 lab
  have v44 : (⟨S4, .f32⟩ : BufTy).Contents (Elt Ideal) :=
    Host.scatterAdd (F := Ideal) (φ := .f32) scatter_S4_S8192x1_S8192_n_0_0_1 v42 v43 v41
  -- the per-label counts: the same sum of ones
  have v45 : (⟨S8192, .f32⟩ : BufTy).Contents (Elt Ideal) :=
    broadcastInDim S8192 ![] bcast_S_S8192 (constant (F := Ideal) S_ .f32 0x3F800000#32)
  have v46 : (⟨S4, .f32⟩ : BufTy).Contents (Elt Ideal) :=
    broadcastInDim S4 ![] bcast_S_S4 (constant (F := Ideal) S_ .f32 0x00000000#32)
  have v47 : (⟨S8192x1, .i32⟩ : BufTy).Contents (Elt Ideal) := broadcastInDim S8192x1 ![0] bcast_S8192_S8192x1_0 lab
  have v48 : (⟨S4, .f32⟩ : BufTy).Contents (Elt Ideal) :=
    Host.scatterAdd (F := Ideal) (φ := .f32) scatter_S4_S8192x1_S8192_n_0_0_1 v46 v47 v45
  -- which labels occur: count above zero
  have v49 : (⟨S4, .f32⟩ : BufTy).Contents (Elt Ideal) :=
    broadcastInDim S4 ![] bcast_S_S4 (constant (F := Ideal) S_ .f32 0x00000000#32)
  have v50 : (⟨S4, .i1⟩ : BufTy).Contents (Elt Ideal) := cmpf (F := Ideal) (φ := .f32) .ogt v48 v49
  -- each label's sum over its count, the count at least one
  have v51 : (⟨S4, .f32⟩ : BufTy).Contents (Elt Ideal) :=
    broadcastInDim S4 ![] bcast_S_S4 (constant (F := Ideal) S_ .f32 0x3F800000#32)
  have v52 : (⟨S4, .f32⟩ : BufTy).Contents (Elt Ideal) := maximumf (F := Ideal) (φ := .f32) v48 v51
  have v53 : (⟨S4, .f32⟩ : BufTy).Contents (Elt Ideal) := Host.divf (F := Ideal) (φ := .f32) v44 v52
  -- zero for a label that does not occur
  have w1 : (⟨S4, .f32⟩ : BufTy).Contents (Elt Ideal) :=
    broadcastInDim S4 ![] bcast_S_S4 (id (constant (F := Ideal) S_ .f32 0x00000000#32))
  have v54 : (⟨S4, .f32⟩ : BufTy).Contents (Elt Ideal) := select v50 v53 w1
  -- the sum of the labels' means
  have v55 : (⟨S_, .f32⟩ : BufTy).Contents (Elt Ideal) :=
    Host.reduceAdd (F := Ideal) (φ := .f32) v54 (constant (F := Ideal) S_ .f32 0x00000000#32) reducesTo_S4_S_d0 h_S_
  -- the number of labels that occur
  have v56 : (⟨S4, .i32⟩ : BufTy).Contents (Elt Ideal) := extui 32 v50 natLt_1_32
  have v57 : (⟨S_, .i32⟩ : BufTy).Contents (Elt Ideal) :=
    Host.reduce IntOp.addi v56 (constantI S_ 32 0#32) reducesTo_S4_S_d0 h_S_
  have v58 : (⟨S_, .f32⟩ : BufTy).Contents (Elt Ideal) := sitofp (F := Ideal) .f32 v57
  -- their quotient
  Host.divf (F := Ideal) (φ := .f32) v55 v58

/-- The reference's result is its closing stages applied to its two row sums and its flattened labels. -/
theorem val_main_v59_eq_tail (x0 : (⟨S2x128x64x64, .f32⟩ : BufTy).Contents (Elt Ideal))
    (x1 : (⟨S2x64x64, .i32⟩ : BufTy).Contents (Elt Ideal)) :
    ReadP.val_main_v59 (F := Ideal) x0 x1
      = tail (ReadP.val_main_v35 (F := Ideal) x0 x1) (ReadP.val_main_v36 (F := Ideal) x0) (ReadP.val_main_v2 (F := Ideal) x1) :=
  rfl

/-- On every device, from any memory with zero counters: every weakly fair execution of the reference terminates
    with its result at the closing stages of its two row sums and labels, the arguments unchanged. -/
theorem run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩
      (fun r => ∀ c : Dev nD,
        r.2.mem ((c.tc : Thread nD τ).loc main_v59)
          = tail (ReadP.val_main_v35 (F := Ideal) (m ((c.tc : Thread nD τ).loc main_arg0)) (m ((c.tc : Thread nD τ).loc main_arg1)))
              (ReadP.val_main_v36 (F := Ideal) (m ((c.tc : Thread nD τ).loc main_arg0)))
              (ReadP.val_main_v2 (F := Ideal) (m ((c.tc : Thread nD τ).loc main_arg1)))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run (Cert.ReferenceIdeal.defs (F := Ideal)) _ _).mono
    (fun _ h c => ⟨((h c).1.trans (ReadP.val_main_v59_eq (F := Ideal) m c)).trans (val_main_v59_eq_tail _ _), (h c).2⟩)
    (ValueP.run (F := Ideal) m ρ)

end Cert.ReferenceIdeal.RefValue

end
-- ==== Proof.KIHost.lean ====
/-
  The two ends of the bridge between the kernel program and the reference, on the extended reals. Before the
  region the kernel program's host operations compute the reference's normalised embeddings (the rounding to the
  narrower float format is the identity on the extended reals) and lay the flattened labels out as a column and as
  a row; after the region its host operations are the reference's closing stages, applied to the region's two
  result columns flattened and to the flattened labels.
-/
import proofs.«400339_j87479893885192_3_alg».proof.Proof.KILaunch
import proofs.«400339_j87479893885192_3_alg».proof.Proof.RefTail

set_option maxRecDepth 16384

noncomputable section

namespace Cert.KernelIdeal.Hand

open Cert.KernelIdeal Cert.KernelIdeal.Gen
open Idealize.ShloMosaic Idealize.ShloMosaic.TcCoe
open Idealize.SL.Sem

/-! ## Over any contents at the stretches' start -/

/-- The host stretches before the region leave the normalised embeddings in their buffer. -/
theorem pre_v7 (V : Valuation τ sig (Elt Ideal)) (i : S8192x128.Idx) :
    (StableHlo.after hostOps0_2 (StableHlo.after hostOps0_1 (StableHlo.after hostOps0 V)) (Proc.devRef .tc main_v7) : S8192x128.Idx → EReal) i
      = (Cert.ReferenceIdeal.ReadP.val_main_v7 (F := Ideal) (V (Proc.devRef .tc main_arg0)) i : EReal) := by
  simp only [hostOps0, hostOps0_1, hostOps0_2]
  after_results
  rfl

/-- The flattened labels. -/
theorem pre_v8 (V : Valuation τ sig (Elt Ideal)) :
    StableHlo.after hostOps0_2 (StableHlo.after hostOps0_1 (StableHlo.after hostOps0 V)) (Proc.devRef .tc main_v8)
      = Cert.ReferenceIdeal.ReadP.val_main_v2 (F := Ideal) (V (Proc.devRef .tc main_arg1)) := by
  simp only [hostOps0, hostOps0_1, hostOps0_2]
  after_results
  rfl

/-- The labels as a column: row `r` holds label `r`. -/
theorem pre_v9 (V : Valuation τ sig (Elt Ideal)) (r : Fin 8192) :
    (StableHlo.after hostOps0_2 (StableHlo.after hostOps0_1 (StableHlo.after hostOps0 V)) (Proc.devRef .tc main_v9) : S8192x1.Idx → BitVec 32)
        (ValueIdx.ix2 r 0)
      = Cert.ReferenceIdeal.ReadP.val_main_v2 (F := Ideal) (V (Proc.devRef .tc main_arg1)) (ValueIdx.ix1 r) := by
  have e : StableHlo.after hostOps0_2 (StableHlo.after hostOps0_1 (StableHlo.after hostOps0 V)) (Proc.devRef .tc main_v9)
      = shapeCast S8192x1 (Cert.ReferenceIdeal.ReadP.val_main_v2 (F := Ideal) (V (Proc.devRef .tc main_arg1))) shapeCasts_S8192_S8192x1 := by
    simp only [hostOps0, hostOps0_1, hostOps0_2]
    after_results
    rfl
  rw [e]
  exact shapeCast_apply _ shapeCasts_S8192_S8192x1 (ValueIdx.ix2 r 0) (ValueIdx.ix1 r)
    (by rw [Shape.rowMajor_val_one, Shape.rowMajor_val_two]; show r.val = r.val * 1 + 0; omega)

/-- The labels as a row: column `r` holds label `r`. -/
theorem pre_v10 (V : Valuation τ sig (Elt Ideal)) (r : Fin 8192) :
    (StableHlo.after hostOps0_2 (StableHlo.after hostOps0_1 (StableHlo.after hostOps0 V)) (Proc.devRef .tc main_v10) : S1x8192.Idx → BitVec 32)
        (ValueIdx.ix2 0 r)
      = Cert.ReferenceIdeal.ReadP.val_main_v2 (F := Ideal) (V (Proc.devRef .tc main_arg1)) (ValueIdx.ix1 r) := by
  have e : StableHlo.after hostOps0_2 (StableHlo.after hostOps0_1 (StableHlo.after hostOps0 V)) (Proc.devRef .tc main_v10)
      = shapeCast S1x8192 (Cert.ReferenceIdeal.ReadP.val_main_v2 (F := Ideal) (V (Proc.devRef .tc main_arg1))) shapeCasts_S8192_S1x8192 := by
    simp only [hostOps0, hostOps0_1, hostOps0_2]
    after_results
    rfl
  rw [e]
  exact shapeCast_apply _ shapeCasts_S8192_S1x8192 (ValueIdx.ix2 0 r) (ValueIdx.ix1 r)
    (by rw [Shape.rowMajor_val_one, Shape.rowMajor_val_two]; show r.val = 0 * 8192 + r.val; omega)

set_option maxHeartbeats 4000000 in
/-- The host stretches after the region are the reference's closing stages of the two row sums, flattened, and
    the flattened labels. -/
theorem post_v36 (V : Valuation τ sig (Elt Ideal)) :
    StableHlo.after hostOps1_2 (StableHlo.after hostOps1_1 (StableHlo.after hostOps1 V)) (Proc.devRef .tc main_v36)
      = Cert.ReferenceIdeal.RefValue.tail
          (shapeCast S8192 (V (Proc.devRef .tc main_v11_0)) shapeCasts_S8192x1_S8192)
          (shapeCast S8192 (V (Proc.devRef .tc main_v11_1)) shapeCasts_S8192x1_S8192)
          (V (Proc.devRef .tc main_v8)) := by
  simp only [hostOps1, hostOps1_1, hostOps1_2]
  after_results_simp
  try simp only [StableHlo.TRef.ofBuf, StableHlo.TRef.toBuf, cast_eq]
  rfl

/-! ## At the run's boundaries -/

section Run
variable (m : (ℓ : Loc nD τ sig) → Buf (Elt Ideal) ℓ) (ρ : Dev nD → PrngReg)

/-- At the region's entry the embeddings' buffer holds the reference's normalised embeddings of the first argument. -/
theorem V3_main_v7 (c : Dev nD) (i : S8192x128.Idx) :
    (V3 m ρ c main_v7 : S8192x128.Idx → EReal) i
      = (Cert.ReferenceIdeal.ReadP.val_main_v7 (F := Ideal) (m ((c : Thread nD τ).loc main_arg0)) i : EReal) :=
  pre_v7 (W0 m ρ c) i

/-- At the region's entry the column of labels holds the reference's flattened labels of the second argument. -/
theorem V3_main_v9 (c : Dev nD) (r : Fin 8192) :
    (V3 m ρ c main_v9 : S8192x1.Idx → BitVec 32) (ValueIdx.ix2 r 0)
      = Cert.ReferenceIdeal.ReadP.val_main_v2 (F := Ideal) (m ((c : Thread nD τ).loc main_arg1)) (ValueIdx.ix1 r) :=
  pre_v9 (W0 m ρ c) r

/-- At the region's entry the row of labels holds the same. -/
theorem V3_main_v10 (c : Dev nD) (r : Fin 8192) :
    (V3 m ρ c main_v10 : S1x8192.Idx → BitVec 32) (ValueIdx.ix2 0 r)
      = Cert.ReferenceIdeal.ReadP.val_main_v2 (F := Ideal) (m ((c : Thread nD τ).loc main_arg1)) (ValueIdx.ix1 r) :=
  pre_v10 (W0 m ρ c) r

/-- At the region's exit the flattened labels are still the reference's. -/
theorem W4_main_v8 (c : Dev nD) :
    W4 m ρ c (Proc.devRef .tc main_v8)
      = Cert.ReferenceIdeal.ReadP.val_main_v2 (F := Ideal) (m ((c : Thread nD τ).loc main_arg1)) :=
  (W4_of_ne m ρ c main_v8 (by decide) (by decide)).trans (pre_v8 (W0 m ρ c))

/-- The value returned: the reference's closing stages of the region's two result columns, flattened, and the
    flattened labels. -/
theorem W7_main_v36 (c : Dev nD) :
    W7 m ρ c (Proc.devRef .tc main_v36)
      = Cert.ReferenceIdeal.RefValue.tail
          (shapeCast S8192 (W4 m ρ c (Proc.devRef .tc main_v11_0)) shapeCasts_S8192x1_S8192)
          (shapeCast S8192 (W4 m ρ c (Proc.devRef .tc main_v11_1)) shapeCasts_S8192x1_S8192)
          (W4 m ρ c (Proc.devRef .tc main_v8)) :=
  post_v36 (W4 m ρ c)

/-- The same with the labels named: the reference's flattened labels of the second argument. -/
theorem W7_main_v36_lab (c : Dev nD) :
    W7 m ρ c (Proc.devRef .tc main_v36)
      = Cert.ReferenceIdeal.RefValue.tail
          (shapeCast S8192 (W4 m ρ c (Proc.devRef .tc main_v11_0)) shapeCasts_S8192x1_S8192)
          (shapeCast S8192 (W4 m ρ c (Proc.devRef .tc main_v11_1)) shapeCasts_S8192x1_S8192)
          (Cert.ReferenceIdeal.ReadP.val_main_v2 (F := Ideal) (m ((c : Thread nD τ).loc main_arg1))) :=
  (W7_main_v36 m ρ c).trans (congrArg _ (W4_main_v8 m ρ c))

end Run

end Cert.KernelIdeal.Hand

end
-- ==== Proof.KIArr.lean ====
/-
  From the written-back blocks to the two output arrays of the contrastive-sums kernel. Each output
  array has 8192 rows in 8 blocks of 1024; block I is written back once, at the last column tile of row
  tile I (the point of position 4 I + 3), from the running column the kernel then holds. The 8 blocks
  tile the array, so after the region row r of an output array holds entry r mod 1024 of the running
  column left by the point of position 4 (r / 1024) + 3.
-/
import proofs.«400339_j87479893885192_3_alg».proof.Proof.KIFrame
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The output blocks' index maps over the grid -/

/-- At the point of position t both output windows sit at block row t / 4, block column 0. -/
theorem idx_out : ∀ t : Fin cfg0.N, win0_4.index t (0 : Fin 2) = t.val / 4 ∧ win0_4.index t (1 : Fin 2) = 0
    ∧ win0_5.index t (0 : Fin 2) = t.val / 4 ∧ win0_5.index t (1 : Fin 2) = 0 :=
  (by decide +kernel : ∀ t : Fin grid0.N, _)

section AtEntry
variable (V : (c : Dev nD) → (b : Ref sig .tc) → Buf (Elt F) ((c : Thread nD τ).loc b))

/-! ## The two arrays, row by row -/

/-- The same-label sums' array: row r is entry r mod 1024 of the same-label running column after the last
    column tile of row tile r / 1024. -/
def posArr (c : Dev nD) : S8192x1.Idx → Elt F .f32 := fun i =>
  (accAt V c (4 * ((i 0).val / 1024) + 3) (by
    have h : (i 0).val < 8192 := (i 0).isLt
    have hN : cfg0.N = 32 := N_0
    omega)).1 (ValueIdx.ix2 (⟨(i 0).val % 1024, Nat.mod_lt _ (by decide)⟩ : Fin 1024) (0 : Fin 1))

/-- The total sums' array, likewise from the total running column. -/
def totArr (c : Dev nD) : S8192x1.Idx → Elt F .f32 := fun i =>
  (accAt V c (4 * ((i 0).val / 1024) + 3) (by
    have h : (i 0).val < 8192 := (i 0).isLt
    have hN : cfg0.N = 32 := N_0
    omega)).2 (ValueIdx.ix2 (⟨(i 0).val % 1024, Nat.mod_lt _ (by decide)⟩ : Fin 1024) (0 : Fin 1))

/-- Row i of the same-label array read at any spelling of its point and of its entry in the column. -/
theorem posArr_apply (c : Dev nD) (i : S8192x1.Idx) (n : ℕ) (hn : n < cfg0.N) (y : S1024x1.Idx)
    (h1 : n = 4 * ((i 0).val / 1024) + 3) (h2 : (y 0).val = (i 0).val % 1024) :
    posArr V c i = (accAt V c n hn).1 y := by
  subst h1
  unfold posArr
  refine congrArg (accAt V c _ hn).1 (funext fun a => ?_)
  match a with
  | ⟨0, _⟩ => exact Fin.ext h2.symm
  | ⟨1, _⟩ => exact Fin.ext (by have : (y 1).val < 1 := (y 1).isLt; show 0 = (y 1).val; omega)

theorem totArr_apply (c : Dev nD) (i : S8192x1.Idx) (n : ℕ) (hn : n < cfg0.N) (y : S1024x1.Idx)
    (h1 : n = 4 * ((i 0).val / 1024) + 3) (h2 : (y 0).val = (i 0).val % 1024) :
    totArr V c i = (accAt V c n hn).2 y := by
  subst h1
  unfold totArr
  refine congrArg (accAt V c _ hn).2 (funext fun a => ?_)
  match a with
  | ⟨0, _⟩ => exact Fin.ext h2.symm
  | ⟨1, _⟩ => exact Fin.ext (by have : (y 1).val < 1 := (y 1).isLt; show 0 = (y 1).val; omega)

/-! ## What a write-back writes is its block of the array -/

theorem flushed_pos (c : Dev nD) (t : Fin cfg0.N) (hf : (cfg0.win 4).flush t = true) :
    (dat V c).flushed 4 t = ((cfg0.win 4).blk t).view.read (Elt F) (posArr V c) := by
  have h3 : t.val % 4 = 3 := (flush0_4 t).mp hf
  obtain ⟨e0, e1, -, -⟩ := idx_out t
  show (cfg0.win 4).cut (grid0.coords t) ((dat V c).after 4 t) = _
  rw [after0_4]
  funext j
  show (accAt V c t.val t.isLt).1 j = posArr V c (((cfg0.win 4).blk t).view.emb j)
  have hj : (j 0).val < 1024 := (j 0).isLt
  refine (posArr_apply V c _ t.val t.isLt j ?_ ?_).symm
  · show t.val = 4 * ((win0_4.index t (0 : Fin 2) * 1024 + 1 * (j 0).val) / 1024) + 3
    omega
  · show (j 0).val = (win0_4.index t (0 : Fin 2) * 1024 + 1 * (j 0).val) % 1024
    omega

theorem flushed_tot (c : Dev nD) (t : Fin cfg0.N) (hf : (cfg0.win 5).flush t = true) :
    (dat V c).flushed 5 t = ((cfg0.win 5).blk t).view.read (Elt F) (totArr V c) := by
  have h3 : t.val % 4 = 3 := (flush0_5 t).mp hf
  obtain ⟨-, -, e0, e1⟩ := idx_out t
  show (cfg0.win 5).cut (grid0.coords t) ((dat V c).after 5 t) = _
  rw [after0_5]
  funext j
  show (accAt V c t.val t.isLt).2 j = totArr V c (((cfg0.win 5).blk t).view.emb j)
  have hj : (j 0).val < 1024 := (j 0).isLt
  refine (totArr_apply V c _ t.val t.isLt j ?_ ?_).symm
  · show t.val = 4 * ((win0_5.index t (0 : Fin 2) * 1024 + 1 * (j 0).val) / 1024) + 3
    omega
  · show (j 0).val = (win0_5.index t (0 : Fin 2) * 1024 + 1 * (j 0).val) % 1024
    omega

end AtEntry

/-! ## The blocks tile the arrays -/

/-- A row of the array is in the block of point t iff each coordinate is in the block's range on its axis. -/
theorem mem_blk_pos (t : Fin cfg0.N) (i : S8192x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v11_0).slice (win0_4.rect t)).set ↔ _
  rw [View.set_slice_whole, Rect.mem_set_unit]
  exact Iff.rfl

theorem mem_blk_tot (t : Fin cfg0.N) (i : S8192x1.Idx) :
    i ∈ ((cfg0.win 5).blk t).view.set ↔ ∀ a : Fin 2, win0_5.index t a * S1024x1.size a ≤ (i a).val ∧ (i a).val < win0_5.index t a * S1024x1.size a + S1024x1.size a := by
  show i ∈ ((View.whole main_v11_1).slice (win0_5.rect t)).set ↔ _
  rw [View.set_slice_whole, Rect.mem_set_unit]
  exact Iff.rfl

/-- Row r is covered by the write-back at the last column tile of row tile r / 1024. -/
theorem cover_pos (i : S8192x1.Idx) :
    ∃ t : Fin cfg0.N, (cfg0.win 4).flush t = true ∧ i ∈ ((cfg0.win 4).blk t).view.set := by
  have h0 : (i 0).val < 8192 := (i 0).isLt
  have h1 : (i 1).val < 1 := (i 1).isLt
  have hN : cfg0.N = 32 := N_0
  have ht : 4 * ((i 0).val / 1024) + 3 < cfg0.N := by omega
  refine ⟨⟨4 * ((i 0).val / 1024) + 3, ht⟩, (flush0_4 _).mpr (by show (4 * ((i 0).val / 1024) + 3) % 4 = 3; omega), ?_⟩
  obtain ⟨e0, e1, -, -⟩ := idx_out ⟨4 * ((i 0).val / 1024) + 3, ht⟩
  have e0' : win0_4.index ⟨4 * ((i 0).val / 1024) + 3, ht⟩ (0 : Fin 2) = (4 * ((i 0).val / 1024) + 3) / 4 := e0
  rw [mem_blk_pos]
  intro a
  match a with
  | ⟨0, _⟩ =>
    show win0_4.index _ (0 : Fin 2) * 1024 ≤ (i 0).val ∧ (i 0).val < win0_4.index _ (0 : Fin 2) * 1024 + 1024
    rw [e0']; omega
  | ⟨1, _⟩ =>
    show win0_4.index _ (1 : Fin 2) * 1 ≤ (i 1).val ∧ (i 1).val < win0_4.index _ (1 : Fin 2) * 1 + 1
    rw [e1]; omega

theorem cover_tot (i : S8192x1.Idx) :
    ∃ t : Fin cfg0.N, (cfg0.win 5).flush t = true ∧ i ∈ ((cfg0.win 5).blk t).view.set := by
  have h0 : (i 0).val < 8192 := (i 0).isLt
  have h1 : (i 1).val < 1 := (i 1).isLt
  have hN : cfg0.N = 32 := N_0
  have ht : 4 * ((i 0).val / 1024) + 3 < cfg0.N := by omega
  refine ⟨⟨4 * ((i 0).val / 1024) + 3, ht⟩, (flush0_5 _).mpr (by show (4 * ((i 0).val / 1024) + 3) % 4 = 3; omega), ?_⟩
  obtain ⟨-, -, e0, e1⟩ := idx_out ⟨4 * ((i 0).val / 1024) + 3, ht⟩
  have e0' : win0_5.index ⟨4 * ((i 0).val / 1024) + 3, ht⟩ (0 : Fin 2) = (4 * ((i 0).val / 1024) + 3) / 4 := e0
  rw [mem_blk_tot]
  intro a
  match a with
  | ⟨0, _⟩ =>
    show win0_5.index _ (0 : Fin 2) * 1024 ≤ (i 0).val ∧ (i 0).val < win0_5.index _ (0 : Fin 2) * 1024 + 1024
    rw [e0']; omega
  | ⟨1, _⟩ =>
    show win0_5.index _ (1 : Fin 2) * 1 ≤ (i 1).val ∧ (i 1).val < win0_5.index _ (1 : Fin 2) * 1 + 1
    rw [e1]; omega

section AtEntry
variable (V : (c : Dev nD) → (b : Ref sig .tc) → Buf (Elt F) ((c : Thread nD τ).loc b))

/-! ## The arrays after the region -/

/-- After the region the same-label sums' array is `posArr`. -/
theorem arrAt_pos (c : Dev nD) : (dat V c).arrAt 4 cfg0.N = posArr V c :=
  (dat V c).arrAt_eq_of_cover 4 (posArr V c) (flushed_pos V c) cover_pos

/-- After the region the total sums' array is `totArr`. -/
theorem arrAt_tot (c : Dev nD) : (dat V c).arrAt 5 cfg0.N = totArr V c :=
  (dat V c).arrAt_eq_of_cover 5 (totArr V c) (flushed_tot V c) cover_tot

/-- Row 1024 I + p of the same-label array is entry p of the running column left at the last column tile
    of row tile I. -/
theorem arrAt_pos_at (c : Dev nD) (I : Fin 8) (p : Fin 1024) :
    (dat V c).arrAt 4 cfg0.N (ValueIdx.ix2 (⟨1024 * I.val + p.val, by have := I.isLt; have := p.isLt; omega⟩ : Fin 8192) (0 : Fin 1))
      = (accAt V c (4 * I.val + 3) (by have := I.isLt; have hN : cfg0.N = 32 := N_0; omega)).1 (ValueIdx.ix2 p (0 : Fin 1)) := by
  have hI := I.isLt
  have hp := p.isLt
  rw [arrAt_pos]
  refine posArr_apply V c _ _ _ _ ?_ ?_
  · show 4 * I.val + 3 = 4 * ((1024 * I.val + p.val) / 1024) + 3
    omega
  · show p.val = (1024 * I.val + p.val) % 1024
    omega

/-- Row 1024 I + p of the total array, likewise. -/
theorem arrAt_tot_at (c : Dev nD) (I : Fin 8) (p : Fin 1024) :
    (dat V c).arrAt 5 cfg0.N (ValueIdx.ix2 (⟨1024 * I.val + p.val, by have := I.isLt; have := p.isLt; omega⟩ : Fin 8192) (0 : Fin 1))
      = (accAt V c (4 * I.val + 3) (by have := I.isLt; have hN : cfg0.N = 32 := N_0; omega)).2 (ValueIdx.ix2 p (0 : Fin 1)) := by
  have hI := I.isLt
  have hp := p.isLt
  rw [arrAt_tot]
  refine totArr_apply V c _ _ _ _ ?_ ?_
  · show 4 * I.val + 3 = 4 * ((1024 * I.val + p.val) / 1024) + 3
    omega
  · show p.val = (1024 * I.val + p.val) % 1024
    omega

end AtEntry

end Cert.KernelIdeal.Hand

end
-- ==== Proof.Spec.lean ====
/-
  The row sums both programs compute, as functions on the extended reals of the 8192 unit-normalised
  embedding rows `E` (128 channels each) and the 8192 pixel labels `lab`:
  the logit of pixels r and c is their inner product divided by the temperature, the diagonal r = c
  replaced by the finite stand-in -1e9; `tot r` sums exp(logit) over every column c, `pos r` over the
  columns whose label is r's. The kernel multiplies by the NAMED inverse temperature where the reference
  divides by the temperature's binary value; `invTemp` and `temp` below are those two numbers and
  `mul_invTemp` says the two readings agree on every extended real.
-/
import Idealize.ShloMosaic.PureOps.Ideal
import Idealize.ShloMosaic.PureOps.Ideal.Laws
import Idealize.ShloMosaic.Lib.ValueIdx

noncomputable section

namespace Cert.Contrast

open Idealize.ShloMosaic Idealize.ShloMosaic.ValueIdx

abbrev SE : Shape := ⟨2, ![8192, 128]⟩
abbrev SN : Shape := ⟨1, ![8192]⟩

/-- The diagonal's fill, -1e9 as its binary value. -/
def negBig : EReal := Ideal.ofBits .f32 0xCE6E6B28#32

/-- The kernel's scale: the named constant's value, 1 / (the binary value of f32 0.1). -/
def invTemp : EReal := ((134217728 / 13421773 : ℝ) : EReal)

/-- The inner product of rows r and c. -/
def dot (E : SE.Idx → EReal) (r c : Fin 8192) : EReal := ∑ d : Fin 128, E (ix2 r d) * E (ix2 c d)

/-- The masked logit, in the kernel's spelling (a product with the named inverse temperature). -/
def logit (E : SE.Idx → EReal) (r c : Fin 8192) : EReal := if r = c then negBig else dot E r c * invTemp

/-- exp(logit). -/
def ex (E : SE.Idx → EReal) (r c : Fin 8192) : EReal := Ideal.exp (logit E r c)

/-- The total row sum. -/
def tot (E : SE.Idx → EReal) (r : Fin 8192) : EReal := ∑ c : Fin 8192, ex E r c

/-- The same-label row sum. -/
def pos (E : SE.Idx → EReal) (lab : SN.Idx → BitVec 32) (r : Fin 8192) : EReal :=
  ∑ c : Fin 8192, if lab (ix1 r) = lab (ix1 c) then ex E r c else 0

end Cert.Contrast

end
-- ==== Proof.KIValue1.lean ====
/-
  One grid point's arithmetic on the extended reals, entry by entry. The score tile's entry at row p
  and column k is exp of the masked logit: the inner product over the 128 channels of row p of the row
  block with row k of the column block, times the inverse temperature, replaced by -1e9 where the global
  row index 1024 I + p equals the global column index 2048 J + k. The total column adds to each running
  entry the sum of that tile's row over its 2048 columns; the same-label column adds the sum restricted
  to the columns whose label equals the row's.
-/
import proofs.«400339_j87479893885192_3_alg».proof.Proof.KIDefs
import proofs.«400339_j87479893885192_3_alg».proof.Proof.Spec
import Idealize.ShloMosaic.Lib.Pipeline.Value
import Idealize.ShloMosaic.Lib.ValueIdx
import Idealize.ShloMosaic.PureOps.Ideal.Laws
import Idealize.ShloMosaic.PureOps.IdealRules

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- The left operand of the tile's product is read at the output's row … -/
theorem lhs_mm_0 (i : S1024x2048.Idx) (q : dot_S1024x128_S2048x128_S1024x2048_1_1_0_0_n_n.contr.Idx) :
    (dot_S1024x128_S2048x128_S1024x2048_1_1_0_0_n_n.lhsIdx i q 0).val = (i 0).val := by
  unfold DotDims.lhsIdx
  rw [dif_neg (show ¬(0 : Fin S1024x128.rank) ∈ dot_S1024x128_S2048x128_S1024x2048_1_1_0_0_n_n.lhsBatch by decide), dif_pos (show (0 : Fin S1024x128.rank) ∈ dot_S1024x128_S2048x128_S1024x2048_1_1_0_0_n_n.lhsNonContracting by decide)]
  rfl
/-- … and the contracted channel; -/
theorem lhs_mm_1 (i : S1024x2048.Idx) (q : dot_S1024x128_S2048x128_S1024x2048_1_1_0_0_n_n.contr.Idx) :
    (dot_S1024x128_S2048x128_S1024x2048_1_1_0_0_n_n.lhsIdx i q 1).val = (q ⟨0, by decide⟩).val :=
  dot_S1024x128_S2048x128_S1024x2048_1_1_0_0_n_n.lhsIdx_val_of_single rfl i q
/-- the right operand at the output's column (its own row) … -/
theorem rhs_mm_0 (i : S1024x2048.Idx) (q : dot_S1024x128_S2048x128_S1024x2048_1_1_0_0_n_n.contr.Idx) :
    (dot_S1024x128_S2048x128_S1024x2048_1_1_0_0_n_n.rhsIdx i q 0).val = (i 1).val := by
  unfold DotDims.rhsIdx
  rw [dif_neg (show ¬(0 : Fin S2048x128.rank) ∈ dot_S1024x128_S2048x128_S1024x2048_1_1_0_0_n_n.rhsBatch by decide), dif_pos (show (0 : Fin S2048x128.rank) ∈ dot_S1024x128_S2048x128_S1024x2048_1_1_0_0_n_n.rhsNonContracting by decide)]
  rfl
/-- … and the contracted channel. -/
theorem rhs_mm_1 (i : S1024x2048.Idx) (q : dot_S1024x128_S2048x128_S1024x2048_1_1_0_0_n_n.contr.Idx) :
    (dot_S1024x128_S2048x128_S1024x2048_1_1_0_0_n_n.rhsIdx i q 1).val = (q ⟨0, by decide⟩).val :=
  dot_S1024x128_S2048x128_S1024x2048_1_1_0_0_n_n.rhsIdx_val_of_single rfl i q

/-- The tile's product into the zero accumulator, at row p and column k: the inner product of row p of the
    row block with row k of the column block over the 128 channels. -/
theorem mm_apply (x0 : Vec Ideal S1024x128 .bf16) (x1 : Vec Ideal S2048x128 .bf16) (p : Fin 1024) (k : Fin 2048) :
    matmul (φ₁ := .bf16) (φ₂ := .bf16) dot_S1024x128_S2048x128_S1024x2048_1_1_0_0_n_n none x0 x1 (constant (F := Ideal) S1024x2048 .f32 0x00000000#32) (ix2 p k)
      = ∑ d : Fin 128, x0 (ix2 p d) * x1 (ix2 k d) := by
  simp only [matmul]
  rw [Ideal.matmul_constant_zero_apply, ← Equiv.sum_comp (ValueIdx.contrEquiv1 dot_S1024x128_S2048x128_S1024x2048_1_1_0_0_n_n 128 rfl rfl).symm]
  refine Finset.sum_congr rfl fun d _ => ?_
  have hk := ValueIdx.contrEquiv1_symm_val dot_S1024x128_S2048x128_S1024x2048_1_1_0_0_n_n 128 rfl rfl d
  have el : dot_S1024x128_S2048x128_S1024x2048_1_1_0_0_n_n.lhsIdx (ix2 p k) ((ValueIdx.contrEquiv1 dot_S1024x128_S2048x128_S1024x2048_1_1_0_0_n_n 128 rfl rfl).symm d) = ix2 p d := funext fun a => Fin.ext (by
    match a with
    | ⟨0, _⟩ => exact lhs_mm_0 _ _
    | ⟨1, _⟩ => exact (lhs_mm_1 _ _).trans hk)
  have er : dot_S1024x128_S2048x128_S1024x2048_1_1_0_0_n_n.rhsIdx (ix2 p k) ((ValueIdx.contrEquiv1 dot_S1024x128_S2048x128_S1024x2048_1_1_0_0_n_n 128 rfl rfl).symm d) = ix2 k d := funext fun a => Fin.ext (by
    match a with
    | ⟨0, _⟩ => exact rhs_mm_0 _ _
    | ⟨1, _⟩ => exact (rhs_mm_1 _ _).trans hk)
  rw [el, er]

/-- exp of a vector at an index. -/
theorem exp_apply' {s : Shape} {φ : FTy} (v : FVec Ideal s φ) (i : s.Idx) : exp v i = Ideal.exp (v i) := rfl

/-- A select on a bit that decides a proposition is the `if` on it. -/
theorem select_if {α : Type} (c : BitVec 1) (a b : α) (P : Prop) [Decidable P] (h : c = 1#1 ↔ P) :
    Scalar.select c a b = if P then a else b := by
  unfold Scalar.select
  by_cases hP : P
  · rw [if_pos hP]; exact if_pos (h.mpr hP)
  · rw [if_neg hP]; exact if_neg (fun hc => hP (h.mp hc))

/-- The diagonal test: the tile's global row index and global column index, computed in 32-bit words from
    the tile's coordinates, are equal as words exactly when they are equal as naturals (both are below 8192). -/
theorem diag_bit (I J : ℕ) (hI : I < 8) (hJ : J < 4) (p : Fin 1024) (k : Fin 2048) :
    IntOp.cmpi .eq (IntOp.addi (Scalar.muli (BitVec.ofNat 32 I) 1024#32) (BitVec.ofNat 32 p.val))
        (IntOp.addi (Scalar.muli (BitVec.ofNat 32 J) 2048#32) (BitVec.ofNat 32 k.val)) = 1#1
      ↔ 1024 * I + p.val = 2048 * J + k.val := by
  have hp := p.isLt
  have hk := k.isLt
  unfold IntOp.cmpi IntOp.addi Scalar.muli IntOp.muli
  dsimp only
  have e1 : BitVec.ofNat 32 I * 1024#32 + BitVec.ofNat 32 p.val = BitVec.ofNat 32 (1024 * I + p.val) := by
    apply BitVec.eq_of_toNat_eq
    simp only [BitVec.toNat_add, BitVec.toNat_mul, BitVec.toNat_ofNat]
    omega
  have e2 : BitVec.ofNat 32 J * 2048#32 + BitVec.ofNat 32 k.val = BitVec.ofNat 32 (2048 * J + k.val) := by
    apply BitVec.eq_of_toNat_eq
    simp only [BitVec.toNat_add, BitVec.toNat_mul, BitVec.toNat_ofNat]
    omega
  rw [e1, e2]
  constructor
  · intro h
    by_contra hne
    have : (BitVec.ofNat 32 (1024 * I + p.val) == BitVec.ofNat 32 (2048 * J + k.val)) = false := by
      rw [beq_eq_false_iff_ne]
      intro heq
      have := congrArg BitVec.toNat heq
      simp only [BitVec.toNat_ofNat] at this
      omega
    rw [this] at h
    exact absurd h (by decide)
  · intro h
    rw [h]
    simp

/-- The named inverse temperature denotes the table's rational. -/
theorem inv_temp : Named.named (F := Ideal) κ "inv_temperature" (φ := .f32) 0x41200000#32 = Cert.Contrast.invTemp :=
  IdealRules.named_const.ideal_named_scalar _ _ _ _ rfl

/-- The score tile's entry at row p and column k. -/
theorem pay5_apply (i : grid0.Coords) (x0 : Vec Ideal S1024x128 .bf16) (x1 : Vec Ideal S2048x128 .bf16) (p : Fin 1024) (k : Fin 2048) :
    k0_pay5 (F := Ideal) i x0 x1 (ix2 p k)
      = Ideal.exp (if 1024 * (i 0).val + p.val = 2048 * (i 1).val + k.val then Cert.Contrast.negBig
          else (∑ d : Fin 128, x0 (ix2 p d) * x1 (ix2 k d)) * Cert.Contrast.invTemp) := by
  unfold k0_pay5
  dsimp only
  refine (exp_apply' _ _).trans (congrArg Ideal.exp ?_)
  refine (select_apply _ _ _ _).trans ?_
  refine (select_if _ _ _ (1024 * (i 0).val + p.val = 2048 * (i 1).val + k.val) ?_).trans ?_
  · show IntOp.cmpi .eq (IntOp.addi (Scalar.muli (BitVec.ofNat 32 (i 0).val) 1024#32) (iota .tc S1024x2048 32 [0] iota_S1024x2048_d0_w32 (ix2 p k)))
        (IntOp.addi (Scalar.muli (BitVec.ofNat 32 (i 1).val) 2048#32) (iota .tc S1024x2048 32 [1] iota_S1024x2048_d1_w32 (ix2 p k))) = 1#1 ↔ _
    rw [iota_single_apply, iota_single_apply]
    exact diag_bit (i 0).val (i 1).val (i 0).isLt (i 1).isLt p k
  · refine if_congr Iff.rfl rfl ?_
    refine (mulf_apply _ _ _).trans ?_
    refine congrArg₂ (· * ·) ?_ ?_
    · rw [shapeCast_self, shapeCast_self]
      exact mm_apply x0 x1 p k
    · exact inv_temp

/-- A vector of 1024 entries viewed as a column reads, at row p, its entry p. -/
theorem col_cast {α : Type} (v : S1024.Idx → α) (h : S1024.ShapeCasts S1024x1) (p : Fin 1024) :
    shapeCast S1024x1 v h (ix2 p 0) = v (ix1 p) := by
  refine shapeCast_apply v h (ix2 p 0) (ix1 p) ?_
  rw [Shape.rowMajor_val_one, Shape.rowMajor_val_two]
  show p.val = p.val * 1 + 0
  omega

/-- Inserting the column k into the row index p gives the tile index (p, k). -/
theorem lift_row (h : S1024x2048.Reduces [1] S1024) (p : Fin 1024) (k : Fin 2048) : h.lift (ix1 p) k = ix2 p k :=
  funext fun a => Fin.ext (by match a with | ⟨0, _⟩ => rfl | ⟨1, _⟩ => rfl)

/-- The row sums of a tile, as a column: at row p the sum over the 2048 columns. -/
theorem rowsum_apply (v : FVec Ideal S1024x2048 .f32) (p : Fin 1024) :
    shapeCast S1024x1 (multiReduction (F := Ideal) .add [1] S1024 v 0x00000000#32 reduces_S1024x2048_S1024 (.inl rfl) rfl) shapeCasts_S1024_S1024x1 (ix2 p 0)
      = ∑ k : Fin 2048, v (ix2 p k) := by
  refine (col_cast _ _ p).trans ?_
  refine (Ideal.multiReduction_add_single v _ reduces_S1024x2048_S1024 (.inl rfl) rfl (ix1 p)).trans ?_
  exact Finset.sum_congr rfl fun k _ => congrArg v (lift_row _ p k)

/-- The total column after a point: the running entry plus the tile's row sum. -/
theorem totStep_apply (i : grid0.Coords) (x0 : Vec Ideal S1024x128 .bf16) (x1 : Vec Ideal S2048x128 .bf16)
    (acc : Vec Ideal S1024x1 .f32) (p : Fin 1024) :
    totStep (F := Ideal) i x0 x1 acc (ix2 p 0) = acc (ix2 p 0) + ∑ k : Fin 2048, k0_pay5 (F := Ideal) i x0 x1 (ix2 p k) := by
  unfold totStep k0_pay2 k0_pay6
  dsimp only
  rw [shapeCast_self]
  refine (addf_apply _ _ _).trans ?_
  exact congrArg (acc (ix2 p 0) + ·) (rowsum_apply _ p)

/-- The label test: the row's label broadcast along the columns against the column's label broadcast along the rows. -/
theorem label_bit (l0 : Vec Ideal S1024x1 .i32) (l1 : Vec Ideal S1x2048 .i32) (p : Fin 1024) (k : Fin 2048) :
    cmpi .eq (broadcastTo S1024x2048 (shapeCast S1024x1 l0 shapeCasts_S1024x1_S1024x1) broadcasts_S1024x1_S1024x2048)
        (broadcastTo S1024x2048 (shapeCast S1x2048 l1 shapeCasts_S1x2048_S1x2048) broadcasts_S1x2048_S1024x2048) (ix2 p k) = 1#1
      ↔ l0 (ix2 p 0) = l1 (ix2 0 k) := by
  rw [shapeCast_self, shapeCast_self]
  show IntOp.cmpi .eq (broadcastTo S1024x2048 l0 broadcasts_S1024x1_S1024x2048 (ix2 p k)) (broadcastTo S1024x2048 l1 broadcasts_S1x2048_S1024x2048 (ix2 p k)) = 1#1 ↔ _
  rw [broadcastTo_apply l0 broadcasts_S1024x1_S1024x2048 (ix2 p k) (ix2 p 0) (fun a => by match a with | ⟨0, _⟩ => rfl | ⟨1, _⟩ => rfl),
    broadcastTo_apply l1 broadcasts_S1x2048_S1024x2048 (ix2 p k) (ix2 0 k) (fun a => by match a with | ⟨0, _⟩ => rfl | ⟨1, _⟩ => rfl)]
  unfold IntOp.cmpi
  dsimp only
  constructor
  · intro h
    by_contra hne
    rw [show (l0 (ix2 p 0) == l1 (ix2 0 k)) = false from beq_eq_false_iff_ne.mpr hne] at h
    exact absurd h (by decide)
  · intro h
    rw [h]
    simp

/-- The same-label column after a point: the running entry plus the tile's row sum over the columns whose label is the row's. -/
theorem posStep_apply (i : grid0.Coords) (x0 : Vec Ideal S1024x128 .bf16) (x1 : Vec Ideal S2048x128 .bf16)
    (l0 : Vec Ideal S1024x1 .i32) (l1 : Vec Ideal S1x2048 .i32) (acc : Vec Ideal S1024x1 .f32) (p : Fin 1024) :
    posStep (F := Ideal) i x0 x1 l0 l1 acc (ix2 p 0)
      = acc (ix2 p 0) + ∑ k : Fin 2048, if l0 (ix2 p 0) = l1 (ix2 0 k) then k0_pay5 (F := Ideal) i x0 x1 (ix2 p k) else 0 := by
  unfold posStep k0_pay1 k0_pay7
  dsimp only
  rw [shapeCast_self]
  refine (addf_apply _ _ _).trans ?_
  refine congrArg (acc (ix2 p 0) + ·) ?_
  refine (rowsum_apply _ p).trans ?_
  refine Finset.sum_congr rfl fun k _ => ?_
  refine (select_apply _ _ _ _).trans ?_
  refine (select_if _ _ _ (l0 (ix2 p 0) = l1 (ix2 0 k)) (label_bit l0 l1 p k)).trans ?_
  exact if_congr Iff.rfl rfl Ideal.ofBits_zero_f32

/-- The cleared columns read 0. -/
theorem posZero_apply (p : Fin 1024) : (posZero (F := Ideal)) (ix2 p 0) = 0 := by
  unfold posZero k0_pay3
  rw [shapeCast_self]
  exact Ideal.ofBits_zero_f32
theorem totZero_apply (p : Fin 1024) : (totZero (F := Ideal)) (ix2 p 0) = 0 := by
  unfold totZero k0_pay4
  rw [shapeCast_self]
  exact Ideal.ofBits_zero_f32

end Cert.KernelIdeal.Hand

end
-- ==== Proof.KIValue2.lean ====
/-
  Where a grid point's four input blocks sit in their arrays. The point of position t has row tile t / 4 and
  column tile t % 4; its row block is rows 1024 (t / 4) + p of the embeddings, its column block rows
  2048 (t % 4) + k of the same array, its row labels the entries 1024 (t / 4) + p of the label column and its
  column labels the entries 2048 (t % 4) + k of the label row: a block's coordinate is the block index times
  the block's extent plus the coordinate inside the block.
-/
import proofs.«400339_j87479893885192_3_alg».proof.Proof.KIDefs
import proofs.«400339_j87479893885192_3_alg».proof.Proof.Spec
import proofs.«400339_j87479893885192_3_alg».proof.Proof.KIValue1
import Idealize.ShloMosaic.Lib.Pipeline.Value
import Idealize.ShloMosaic.Lib.ValueIdx
import Idealize.ShloMosaic.PureOps.Ideal.Laws
import Idealize.ShloMosaic.PureOps.IdealRules

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F] [Named F]

/-- The grid's coordinates at position t: row tile t / 4, column tile t % 4. -/
theorem coords_t : ∀ t : Fin cfg0.N, ((grid0.coords t) 0).val = t.val / 4 ∧ ((grid0.coords t) 1).val = t.val % 4 :=
  (by decide +kernel : ∀ t : Fin grid0.N, ((grid0.coords t) 0).val = t.val / 4 ∧ ((grid0.coords t) 1).val = t.val % 4)

/-- The four input windows' block indices at position t. -/
theorem index_0 : ∀ t : Fin cfg0.N, win0_0.index t (0 : Fin 2) = t.val / 4 ∧ win0_0.index t (1 : Fin 2) = 0 :=
  (by decide +kernel : ∀ t : Fin grid0.N, win0_0.index t (0 : Fin 2) = t.val / 4 ∧ win0_0.index t (1 : Fin 2) = 0)
theorem index_1 : ∀ t : Fin cfg0.N, win0_1.index t (0 : Fin 2) = t.val % 4 ∧ win0_1.index t (1 : Fin 2) = 0 :=
  (by decide +kernel : ∀ t : Fin grid0.N, win0_1.index t (0 : Fin 2) = t.val % 4 ∧ win0_1.index t (1 : Fin 2) = 0)
theorem index_2 : ∀ t : Fin cfg0.N, win0_2.index t (0 : Fin 2) = t.val / 4 ∧ win0_2.index t (1 : Fin 2) = 0 :=
  (by decide +kernel : ∀ t : Fin grid0.N, win0_2.index t (0 : Fin 2) = t.val / 4 ∧ win0_2.index t (1 : Fin 2) = 0)
theorem index_3 : ∀ t : Fin cfg0.N, win0_3.index t (0 : Fin 2) = 0 ∧ win0_3.index t (1 : Fin 2) = t.val % 4 :=
  (by decide +kernel : ∀ t : Fin grid0.N, win0_3.index t (0 : Fin 2) = 0 ∧ win0_3.index t (1 : Fin 2) = t.val % 4)

section AtEntry
variable (V : (c : Dev nD) → (b : Ref sig .tc) → Buf (Elt F) ((c : Thread nD τ).loc b))

/-- The row block: row p is row 1024 (t / 4) + p of the embeddings. -/
theorem eRow_apply (c : Dev nD) (t : Fin cfg0.N) (p : Fin 1024) (d : Fin 128) (k : S8192x128.Idx)
    (hk0 : (k 0).val = 1024 * (t.val / 4) + p.val) (hk1 : (k 1).val = d.val) :
    eRow V c t (ix2 p d) = (V c main_v7 : S8192x128.Idx → Elt F .bf16) k := by
  have hi := index_0 t
  unfold eRow iblk
  rw [View.read_apply]
  show V c main_v7 _ = V c main_v7 _
  congr 1
  funext a
  apply Fin.ext
  match a with
  | ⟨0, _⟩ => show win0_0.index t 0 * 1024 + 1 * p.val = (k 0).val; rw [hi.1, hk0]; omega
  | ⟨1, _⟩ => show win0_0.index t 1 * 128 + 1 * d.val = (k 1).val; rw [hi.2, hk1]; omega

/-- The column block: row k is row 2048 (t % 4) + k of the embeddings. -/
theorem eCol_apply (c : Dev nD) (t : Fin cfg0.N) (k' : Fin 2048) (d : Fin 128) (k : S8192x128.Idx)
    (hk0 : (k 0).val = 2048 * (t.val % 4) + k'.val) (hk1 : (k 1).val = d.val) :
    eCol V c t (ix2 k' d) = (V c main_v7 : S8192x128.Idx → Elt F .bf16) k := by
  have hi := index_1 t
  unfold eCol iblk
  rw [View.read_apply]
  show V c main_v7 _ = V c main_v7 _
  congr 1
  funext a
  apply Fin.ext
  match a with
  | ⟨0, _⟩ => show win0_1.index t 0 * 2048 + 1 * k'.val = (k 0).val; rw [hi.1, hk0]; omega
  | ⟨1, _⟩ => show win0_1.index t 1 * 128 + 1 * d.val = (k 1).val; rw [hi.2, hk1]; omega

/-- The rows' labels: entry p is entry 1024 (t / 4) + p of the label column. -/
theorem lRow_apply (c : Dev nD) (t : Fin cfg0.N) (p : Fin 1024) (k : S8192x1.Idx)
    (hk0 : (k 0).val = 1024 * (t.val / 4) + p.val) :
    lRow V c t (ix2 p 0) = (V c main_v9 : S8192x1.Idx → BitVec 32) k := by
  have hi := index_2 t
  have hk1 : (k 1).val = 0 := by have := (k 1).isLt; simp at this; omega
  unfold lRow iblk
  rw [View.read_apply]
  show V c main_v9 _ = V c main_v9 _
  congr 1
  funext a
  apply Fin.ext
  match a with
  | ⟨0, _⟩ => show win0_2.index t 0 * 1024 + 1 * p.val = (k 0).val; rw [hi.1, hk0]; omega
  | ⟨1, _⟩ => show win0_2.index t 1 * 1 + 1 * 0 = (k 1).val; rw [hi.2, hk1]

/-- The columns' labels: entry k is entry 2048 (t % 4) + k of the label row. -/
theorem lCol_apply (c : Dev nD) (t : Fin cfg0.N) (k' : Fin 2048) (k : S1x8192.Idx)
    (hk1 : (k 1).val = 2048 * (t.val % 4) + k'.val) :
    lCol V c t (ix2 0 k') = (V c main_v10 : S1x8192.Idx → BitVec 32) k := by
  have hi := index_3 t
  have hk0 : (k 0).val = 0 := by have := (k 0).isLt; simp at this; omega
  unfold lCol iblk
  rw [View.read_apply]
  show V c main_v10 _ = V c main_v10 _
  congr 1
  funext a
  apply Fin.ext
  match a with
  | ⟨0, _⟩ => show win0_3.index t 0 * 1 + 1 * 0 = (k 0).val; rw [hi.1, hk0]
  | ⟨1, _⟩ => show win0_3.index t 1 * 2048 + 1 * k'.val = (k 1).val; rw [hi.2, hk1]; omega

end AtEntry

/-! ## A point's contribution, in the specification's terms -/

/-- A function on the 8192 columns, extended by 0 to every natural number. -/
def gex (f : Fin 8192 → EReal) (n : ℕ) : EReal := if h : n < 8192 then f ⟨n, h⟩ else 0

theorem gex_of_lt (f : Fin 8192 → EReal) (cc : Fin 8192) (n : ℕ) (h : cc.val = n) : gex f n = f cc := by
  subst h
  unfold gex
  rw [dif_pos cc.isLt]

/-- The four column tiles exhaust the 8192 columns. -/
theorem sum_tiles (f : Fin 8192 → EReal) :
    ∑ j ∈ Finset.range 4, ∑ k : Fin 2048, gex f (2048 * j + k.val) = ∑ cc : Fin 8192, f cc := by
  rw [← Fin.sum_univ_eq_sum_range (fun j => ∑ k : Fin 2048, gex f (2048 * j + k.val)) 4]
  rw [← Equiv.sum_comp (finProdFinEquiv (m := 4) (n := 2048)) f, Fintype.sum_prod_type]
  refine Finset.sum_congr rfl fun j _ => Finset.sum_congr rfl fun k _ => ?_
  exact gex_of_lt f _ _ (by show k.val + 2048 * j.val = 2048 * j.val + k.val; omega)

section Tile
variable (V : (c : Dev nD) → (b : Ref sig .tc) → Buf (Elt Ideal) ((c : Thread nD τ).loc b)) (c : Dev nD)
  (E : Cert.Contrast.SE.Idx → EReal) (lab : Cert.Contrast.SN.Idx → BitVec 32)

/-- The same-label summand of row r at column cc. -/
def posTerm (r cc : Fin 8192) : EReal := if lab (ix1 r) = lab (ix1 cc) then Cert.Contrast.ex E r cc else 0

/-- The score tile's entry is exp of the masked logit of its global row and column. -/
theorem tile_entry (hE : ∀ (r : Fin 8192) (d : Fin 128), (V c main_v7 : S8192x128.Idx → EReal) (ix2 r d) = E (ix2 r d))
    (t : Fin cfg0.N) (p : Fin 1024) (k : Fin 2048) (r cc : Fin 8192)
    (hr : r.val = 1024 * (t.val / 4) + p.val) (hc : cc.val = 2048 * (t.val % 4) + k.val) :
    k0_pay5 (F := Ideal) (grid0.coords t) (eRow V c t) (eCol V c t) (ix2 p k) = Cert.Contrast.ex E r cc := by
  have hco := coords_t t
  refine (pay5_apply (grid0.coords t) (eRow V c t) (eCol V c t) p k).trans ?_
  unfold Cert.Contrast.ex Cert.Contrast.logit Cert.Contrast.dot
  refine congrArg Ideal.exp (if_congr ?_ rfl (congrArg (· * Cert.Contrast.invTemp) (Finset.sum_congr rfl fun d _ => ?_)))
  · rw [hco.1, hco.2, Fin.ext_iff, hr, hc]
  · rw [eRow_apply V c t p d (ix2 r d) hr rfl, eCol_apply V c t k d (ix2 cc d) hc rfl]
    exact congrArg₂ (· * ·) (hE r d) (hE cc d)

/-- The total column's step at a point adds the row's sum of exp(logit) over the point's column tile. -/
theorem tot_tile (hE : ∀ (r : Fin 8192) (d : Fin 128), (V c main_v7 : S8192x128.Idx → EReal) (ix2 r d) = E (ix2 r d))
    (t : Fin cfg0.N) (acc : Vec Ideal S1024x1 .f32) (p : Fin 1024) (r : Fin 8192) (hr : r.val = 1024 * (t.val / 4) + p.val) :
    totStep (F := Ideal) (grid0.coords t) (eRow V c t) (eCol V c t) acc (ix2 p 0)
      = acc (ix2 p 0) + ∑ k : Fin 2048, gex (Cert.Contrast.ex E r) (2048 * (t.val % 4) + k.val) := by
  have ht : t.val % 4 < 4 := Nat.mod_lt _ (by decide)
  refine (totStep_apply (grid0.coords t) (eRow V c t) (eCol V c t) acc p).trans ?_
  refine congrArg (acc (ix2 p 0) + ·) (Finset.sum_congr rfl fun k _ => ?_)
  have hk := k.isLt
  refine (tile_entry V c E hE t p k r ⟨2048 * (t.val % 4) + k.val, by omega⟩ hr rfl).trans ?_
  exact (gex_of_lt _ _ _ rfl).symm

/-- The same-label column's step adds the same sum restricted to the columns whose label is the row's. -/
theorem pos_tile (hE : ∀ (r : Fin 8192) (d : Fin 128), (V c main_v7 : S8192x128.Idx → EReal) (ix2 r d) = E (ix2 r d))
    (h9 : ∀ r : Fin 8192, (V c main_v9 : S8192x1.Idx → BitVec 32) (ix2 r 0) = lab (ix1 r))
    (h10 : ∀ r : Fin 8192, (V c main_v10 : S1x8192.Idx → BitVec 32) (ix2 0 r) = lab (ix1 r))
    (t : Fin cfg0.N) (acc : Vec Ideal S1024x1 .f32) (p : Fin 1024) (r : Fin 8192) (hr : r.val = 1024 * (t.val / 4) + p.val) :
    posStep (F := Ideal) (grid0.coords t) (eRow V c t) (eCol V c t) (lRow V c t) (lCol V c t) acc (ix2 p 0)
      = acc (ix2 p 0) + ∑ k : Fin 2048, gex (posTerm E lab r) (2048 * (t.val % 4) + k.val) := by
  have ht : t.val % 4 < 4 := Nat.mod_lt _ (by decide)
  refine (posStep_apply (grid0.coords t) (eRow V c t) (eCol V c t) (lRow V c t) (lCol V c t) acc p).trans ?_
  refine congrArg (acc (ix2 p 0) + ·) (Finset.sum_congr rfl fun k _ => ?_)
  have hk := k.isLt
  refine Eq.trans ?_ (gex_of_lt (posTerm E lab r) ⟨2048 * (t.val % 4) + k.val, by omega⟩ _ rfl).symm
  unfold posTerm
  rw [lRow_apply V c t p (ix2 r 0) hr, lCol_apply V c t k (ix2 0 ⟨2048 * (t.val % 4) + k.val, by omega⟩) rfl, h9, h10,
    tile_entry V c E hE t p k r ⟨2048 * (t.val % 4) + k.val, by omega⟩ hr rfl]

end Tile

/-! ## The running columns after each point, and after a row tile's last point -/

section Run
variable (V : (c : Dev nD) → (b : Ref sig .tc) → Buf (Elt Ideal) ((c : Thread nD τ).loc b)) (c : Dev nD)
  (E : Cert.Contrast.SE.Idx → EReal) (lab : Cert.Contrast.SN.Idx → BitVec 32)

/-- At a row tile's first point the total column holds the first column tile's sum. -/
theorem tot_first (hE : ∀ (r : Fin 8192) (d : Fin 128), (V c main_v7 : S8192x128.Idx → EReal) (ix2 r d) = E (ix2 r d))
    (t : Fin cfg0.N) (h0 : t.val % 4 = 0) (p : Fin 1024) (r : Fin 8192) (hr : r.val = 1024 * (t.val / 4) + p.val) :
    (accAt V c t.val t.isLt).2 (ix2 p 0)
      = ∑ j ∈ Finset.range (t.val % 4 + 1), ∑ k : Fin 2048, gex (Cert.Contrast.ex E r) (2048 * j + k.val) := by
  rw [accAt_first V c t h0]
  dsimp only
  refine (tot_tile V c E hE t totZero p r hr).trans ?_
  rw [totZero_apply, zero_add, h0, Nat.zero_add, Finset.sum_range_one]

/-- At a later point it holds what it held plus that point's column tile's sum. -/
theorem tot_next (hE : ∀ (r : Fin 8192) (d : Fin 128), (V c main_v7 : S8192x128.Idx → EReal) (ix2 r d) = E (ix2 r d))
    (t : Fin cfg0.N) (h0 : ¬ t.val % 4 = 0) (p : Fin 1024) (r : Fin 8192) (hr : r.val = 1024 * (t.val / 4) + p.val)
    (ih : (accAt V c (t.val - 1) (Nat.lt_of_le_of_lt (Nat.sub_le _ _) t.isLt)).2 (ix2 p 0)
      = ∑ j ∈ Finset.range (t.val % 4), ∑ k : Fin 2048, gex (Cert.Contrast.ex E r) (2048 * j + k.val)) :
    (accAt V c t.val t.isLt).2 (ix2 p 0)
      = ∑ j ∈ Finset.range (t.val % 4 + 1), ∑ k : Fin 2048, gex (Cert.Contrast.ex E r) (2048 * j + k.val) := by
  rw [accAt_next V c t h0]
  dsimp only
  refine (tot_tile V c E hE t (accAt V c (t.val - 1) (Nat.lt_of_le_of_lt (Nat.sub_le _ _) t.isLt)).2 p r hr).trans ?_
  rw [ih, Finset.sum_range_succ]

/-- After the point of position n the total column of row r holds the sums of the column tiles 0 … n % 4. -/
theorem tot_inv (hE : ∀ (r : Fin 8192) (d : Fin 128), (V c main_v7 : S8192x128.Idx → EReal) (ix2 r d) = E (ix2 r d))
    (p : Fin 1024) (r : Fin 8192) : ∀ (n : ℕ) (hn : n < cfg0.N), r.val = 1024 * (n / 4) + p.val →
    (accAt V c n hn).2 (ix2 p 0)
      = ∑ j ∈ Finset.range (n % 4 + 1), ∑ k : Fin 2048, gex (Cert.Contrast.ex E r) (2048 * j + k.val)
  | 0, hn, hr => tot_first V c E hE ⟨0, hn⟩ rfl p r hr
  | n + 1, hn, hr => by
    by_cases h0 : (n + 1) % 4 = 0
    · exact tot_first V c E hE ⟨n + 1, hn⟩ h0 p r hr
    · have ih := tot_inv hE p r n (Nat.lt_of_succ_lt hn) (by omega)
      rw [show n % 4 + 1 = (n + 1) % 4 from by omega] at ih
      exact tot_next V c E hE ⟨n + 1, hn⟩ h0 p r hr ih

/-- The same for the same-label column. -/
theorem pos_first (hE : ∀ (r : Fin 8192) (d : Fin 128), (V c main_v7 : S8192x128.Idx → EReal) (ix2 r d) = E (ix2 r d))
    (h9 : ∀ r : Fin 8192, (V c main_v9 : S8192x1.Idx → BitVec 32) (ix2 r 0) = lab (ix1 r))
    (h10 : ∀ r : Fin 8192, (V c main_v10 : S1x8192.Idx → BitVec 32) (ix2 0 r) = lab (ix1 r))
    (t : Fin cfg0.N) (h0 : t.val % 4 = 0) (p : Fin 1024) (r : Fin 8192) (hr : r.val = 1024 * (t.val / 4) + p.val) :
    (accAt V c t.val t.isLt).1 (ix2 p 0)
      = ∑ j ∈ Finset.range (t.val % 4 + 1), ∑ k : Fin 2048, gex (posTerm E lab r) (2048 * j + k.val) := by
  rw [accAt_first V c t h0]
  dsimp only
  refine (pos_tile V c E lab hE h9 h10 t posZero p r hr).trans ?_
  rw [posZero_apply, zero_add, h0, Nat.zero_add, Finset.sum_range_one]

theorem pos_next (hE : ∀ (r : Fin 8192) (d : Fin 128), (V c main_v7 : S8192x128.Idx → EReal) (ix2 r d) = E (ix2 r d))
    (h9 : ∀ r : Fin 8192, (V c main_v9 : S8192x1.Idx → BitVec 32) (ix2 r 0) = lab (ix1 r))
    (h10 : ∀ r : Fin 8192, (V c main_v10 : S1x8192.Idx → BitVec 32) (ix2 0 r) = lab (ix1 r))
    (t : Fin cfg0.N) (h0 : ¬ t.val % 4 = 0) (p : Fin 1024) (r : Fin 8192) (hr : r.val = 1024 * (t.val / 4) + p.val)
    (ih : (accAt V c (t.val - 1) (Nat.lt_of_le_of_lt (Nat.sub_le _ _) t.isLt)).1 (ix2 p 0)
      = ∑ j ∈ Finset.range (t.val % 4), ∑ k : Fin 2048, gex (posTerm E lab r) (2048 * j + k.val)) :
    (accAt V c t.val t.isLt).1 (ix2 p 0)
      = ∑ j ∈ Finset.range (t.val % 4 + 1), ∑ k : Fin 2048, gex (posTerm E lab r) (2048 * j + k.val) := by
  rw [accAt_next V c t h0]
  dsimp only
  refine (pos_tile V c E lab hE h9 h10 t (accAt V c (t.val - 1) (Nat.lt_of_le_of_lt (Nat.sub_le _ _) t.isLt)).1 p r hr).trans ?_
  rw [ih, Finset.sum_range_succ]

theorem pos_inv (hE : ∀ (r : Fin 8192) (d : Fin 128), (V c main_v7 : S8192x128.Idx → EReal) (ix2 r d) = E (ix2 r d))
    (h9 : ∀ r : Fin 8192, (V c main_v9 : S8192x1.Idx → BitVec 32) (ix2 r 0) = lab (ix1 r))
    (h10 : ∀ r : Fin 8192, (V c main_v10 : S1x8192.Idx → BitVec 32) (ix2 0 r) = lab (ix1 r))
    (p : Fin 1024) (r : Fin 8192) : ∀ (n : ℕ) (hn : n < cfg0.N), r.val = 1024 * (n / 4) + p.val →
    (accAt V c n hn).1 (ix2 p 0)
      = ∑ j ∈ Finset.range (n % 4 + 1), ∑ k : Fin 2048, gex (posTerm E lab r) (2048 * j + k.val)
  | 0, hn, hr => pos_first V c E lab hE h9 h10 ⟨0, hn⟩ rfl p r hr
  | n + 1, hn, hr => by
    by_cases h0 : (n + 1) % 4 = 0
    · exact pos_first V c E lab hE h9 h10 ⟨n + 1, hn⟩ h0 p r hr
    · have ih := pos_inv hE h9 h10 p r n (Nat.lt_of_succ_lt hn) (by omega)
      rw [show n % 4 + 1 = (n + 1) % 4 from by omega] at ih
      exact pos_next V c E lab hE h9 h10 ⟨n + 1, hn⟩ h0 p r hr ih

/-- After the last point of row tile I the two running columns hold, at row p, the same-label sum and the
    total sum of exp(logit) of row 1024 I + p over all 8192 columns. -/
theorem acc_value (hE : ∀ (r : Fin 8192) (d : Fin 128), (V c main_v7 : S8192x128.Idx → EReal) (ix2 r d) = E (ix2 r d))
    (h9 : ∀ r : Fin 8192, (V c main_v9 : S8192x1.Idx → BitVec 32) (ix2 r 0) = lab (ix1 r))
    (h10 : ∀ r : Fin 8192, (V c main_v10 : S1x8192.Idx → BitVec 32) (ix2 0 r) = lab (ix1 r))
    (I : Fin 8) (p : Fin 1024) :
    (accAt V c (4 * I.val + 3) (by have := I.isLt; rw [show cfg0.N = 32 from N_0]; omega)).1 (ix2 p 0)
        = Cert.Contrast.pos E lab ⟨1024 * I.val + p.val, by have := I.isLt; have := p.isLt; omega⟩
      ∧ (accAt V c (4 * I.val + 3) (by have := I.isLt; rw [show cfg0.N = 32 from N_0]; omega)).2 (ix2 p 0)
        = Cert.Contrast.tot E ⟨1024 * I.val + p.val, by have := I.isLt; have := p.isLt; omega⟩ := by
  have hI := I.isLt
  have hp := p.isLt
  have hn : 4 * I.val + 3 < cfg0.N := by rw [show cfg0.N = 32 from N_0]; omega
  have e4 : (4 * I.val + 3) % 4 + 1 = 4 := by omega
  constructor
  · have h := pos_inv V c E lab hE h9 h10 p ⟨1024 * I.val + p.val, by omega⟩ (4 * I.val + 3) hn (by dsimp only; omega)
    rw [e4] at h
    exact h.trans (sum_tiles _)
  · have h := tot_inv V c E hE p ⟨1024 * I.val + p.val, by omega⟩ (4 * I.val + 3) hn (by dsimp only; omega)
    rw [e4] at h
    exact h.trans (sum_tiles _)

end Run

end Cert.KernelIdeal.Hand

end
-- ==== Proof.RefScatter.lean ====
/-
  The reference's masked logits read at an index: the scatter that sets the diagonal writes one constant at the
  positions `(k, k)`, `k` below 8192, and leaves every other element of the logits as it was. The index rows are
  two copies of the column `0, 1, …, 8191` (each entry wrapped by the extent when negative, which none is) side by
  side, so row `k` of the index array is `(k, k)`; every write stores the same value, so the order of the writes
  does not matter and the element at `(r, c)` is the constant exactly when `r = c`.
-/
import proofs.«400339_j87479893885192_3_alg».proof.Proof.RefRun

noncomputable section

namespace Cert.ReferenceIdeal.RefValue

open Cert.ReferenceIdeal Cert.ReferenceIdeal.Gen Idealize.ShloMosaic Idealize.ShloMosaic.TcCoe Idealize.SL.Sem Idealize.ShloMosaic.StableHlo

/-- A scatter whose body returns the update and whose updates all hold one value `c`: the element at `i` is `c`
    when some update index lands on `i`, the operand's element otherwise. The order of the updates is immaterial
    because every write stores the same value. -/
theorem scatter_const_apply {α : Type} {s si u : Shape} {w : Nat} (d : ScatterDims s si u) (x : s.Idx → α)
    (idx : IVec si w) (upd : u.Idx → α) (c : α) (hupd : ∀ j, upd j = c) (i : s.Idx) :
    (∀ j, d.resultIdx? j idx = some i → Host.scatter d (fun _ b => b) x idx upd i = c)
    ∧ ((∀ j, d.resultIdx? j idx ≠ some i) → Host.scatter d (fun _ b => b) x idx upd i = x i) := by
  classical
  have key : ∀ (l : List (Fin u.numel)) (x : s.Idx → α),
      (l.foldl (fun r n =>
          match d.resultIdx? (u.rowMajor.symm n) idx with
          | some i₀ => fun i' => if i' = i₀ then (fun _ b => b) (r i₀) (upd (u.rowMajor.symm n)) else r i'
          | none => r) x) i
        = if ∃ n ∈ l, d.resultIdx? (u.rowMajor.symm n) idx = some i then c else x i := by
    intro l
    induction l with
    | nil => intro x; simp
    | cons a l ih =>
      intro x
      rw [List.foldl_cons, ih]
      by_cases hl : ∃ n ∈ l, d.resultIdx? (u.rowMajor.symm n) idx = some i
      · obtain ⟨n, hn, h⟩ := hl
        rw [if_pos ⟨n, hn, h⟩, if_pos ⟨n, List.mem_cons_of_mem _ hn, h⟩]
      · rw [if_neg hl]
        cases hg : d.resultIdx? (u.rowMajor.symm a) idx with
        | none =>
          have : ¬∃ n ∈ a :: l, d.resultIdx? (u.rowMajor.symm n) idx = some i := by
            rintro ⟨n, hn, h⟩
            rcases List.mem_cons.1 hn with rfl | hn
            · rw [hg] at h; cases h
            · exact hl ⟨n, hn, h⟩
          rw [if_neg this]
        | some i₀ =>
          by_cases hi : i = i₀
          · subst hi
            rw [if_pos ⟨a, List.mem_cons_self, hg⟩]
            simp only [if_pos rfl, hupd, if_true]
          · have : ¬∃ n ∈ a :: l, d.resultIdx? (u.rowMajor.symm n) idx = some i := by
              rintro ⟨n, hn, h⟩
              rcases List.mem_cons.1 hn with rfl | hn
              · rw [hg] at h; exact hi (Option.some.inj h).symm
              · exact hl ⟨n, hn, h⟩
            rw [if_neg this]
            simp only [if_neg hi]
  have hfold := key (List.finRange u.numel) x
  constructor
  · intro j hj
    unfold Host.scatter
    refine hfold.trans (if_pos ⟨u.rowMajor j, List.mem_finRange _, ?_⟩)
    rw [Equiv.symm_apply_apply]; exact hj
  · intro hno
    unfold Host.scatter
    refine hfold.trans (if_neg ?_)
    rintro ⟨n, _, h⟩
    exact hno _ h

/-! ## The index rows of the diagonal scatter -/

theorem toInt_ofNat_small (k : Nat) (hk : k < 8192) : (BitVec.ofNat 32 k).toInt = (k : Int) := by
  have h1 : (BitVec.ofNat 32 k).toNat = k := by rw [BitVec.toNat_ofNat]; exact Nat.mod_eq_of_lt (by omega)
  rw [BitVec.toInt_eq_toNat_cond, h1]
  split <;> omega

/-- The index row an update coordinate reads: row `k`, component `c'`. -/
theorem siIdx_diag (k : Fin 8192) (c' : Fin scatter_S8192x8192_S8192x2_S8192_n_01_01_1.scatterDimsToOperandDims.length) :
    scatter_S8192x8192_S8192x2_S8192_n_01_01_1.siIdx (ValueIdx.ix1 k) c' = ValueIdx.ix2 k (c'.cast rfl : Fin 2) := by
  funext b
  match b with
  | ⟨0, _⟩ => rfl
  | ⟨1, _⟩ => rfl

theorem start_diag (idx : IVec S8192x2 32)
    (hidx : ∀ (k : Fin 8192) (c' : Fin 2), idx (ValueIdx.ix2 k c') = BitVec.ofNat 32 k.val) (k : Fin 8192) (a : Fin 2) :
    scatter_S8192x8192_S8192x2_S8192_n_01_01_1.start (ValueIdx.ix1 k) idx a
      + scatter_S8192x8192_S8192x2_S8192_n_01_01_1.window (ValueIdx.ix1 k) a = (k.val : Int) := by
  have hmem : a ∈ scatter_S8192x8192_S8192x2_S8192_n_01_01_1.scatterDimsToOperandDims := by revert a; decide
  have hnot : ¬a ∈ scatter_S8192x8192_S8192x2_S8192_n_01_01_1.sKept := by revert a; decide
  have hw : scatter_S8192x8192_S8192x2_S8192_n_01_01_1.window (ValueIdx.ix1 k) a = 0 := by
    unfold ScatterDims.window
    rw [dif_neg hnot]
  have hs : scatter_S8192x8192_S8192x2_S8192_n_01_01_1.start (ValueIdx.ix1 k) idx a = (k.val : Int) := by
    unfold ScatterDims.start
    rw [dif_pos hmem]
    rw [siIdx_diag, hidx, toInt_ofNat_small _ k.isLt]
  rw [hw, hs]; simp

theorem resultIdx_diag (idx : IVec S8192x2 32)
    (hidx : ∀ (k : Fin 8192) (c' : Fin 2), idx (ValueIdx.ix2 k c') = BitVec.ofNat 32 k.val) (k : Fin 8192) :
    scatter_S8192x8192_S8192x2_S8192_n_01_01_1.resultIdx? (ValueIdx.ix1 k) idx = some (ValueIdx.ix2 k k) := by
  have hs := start_diag idx hidx k
  unfold ScatterDims.resultIdx?
  have hsz : ∀ a : Fin 2, S8192x8192.size a = 8192 := by decide
  rw [dif_pos (fun a => by rw [hs a, hsz a]; have := k.isLt; omega)]
  congr 1
  funext a
  apply Fin.ext
  show (scatter_S8192x8192_S8192x2_S8192_n_01_01_1.start (ValueIdx.ix1 k) idx a
      + scatter_S8192x8192_S8192x2_S8192_n_01_01_1.window (ValueIdx.ix1 k) a).toNat = _
  rw [hs a]
  match a with
  | ⟨0, _⟩ => rfl
  | ⟨1, _⟩ => rfl

/-- The wrapped iota at position `i` is `i` itself: no entry of `0, …, 8191` is negative. -/
theorem v17_at (i : S8192.Idx) : ReadP.val_main_v17 (F := Ideal) i = BitVec.ofNat 32 (i 0).val := by
  rw [ReadP.val_main_v17_apply, ReadP.val_main_v14_apply, ReadP.val_main_v12_apply, ReadP.val_main_v13_apply,
    ReadP.val_main_c_apply]
  unfold Scalar.select
  rw [if_neg]
  intro h
  have h' := IntOp.cmpi_slt.mp h
  rw [toInt_ofNat_small _ (i 0).isLt, BitVec.toInt_zero] at h'
  omega

/-- The second copy of the wrapped iota, likewise. -/
theorem v22_at (i : S8192.Idx) : ReadP.val_main_v22 (F := Ideal) i = BitVec.ofNat 32 (i 0).val := by
  rw [ReadP.val_main_v22_apply, ReadP.val_main_v19_apply, ReadP.val_main_v12_apply, ReadP.val_main_v18_apply,
    ReadP.val_main_c_2_apply]
  unfold Scalar.select
  rw [if_neg]
  intro h
  have h' := IntOp.cmpi_slt.mp h
  rw [toInt_ofNat_small _ (i 0).isLt, BitVec.toInt_zero] at h'
  omega

/-- Row `k` of the index array is `(k, k)`. -/
theorem v25_at (k : Fin 8192) (c' : Fin 2) :
    ReadP.val_main_v25 (F := Ideal) (ValueIdx.ix2 k c') = BitVec.ofNat 32 k.val := by
  unfold ReadP.val_main_v25
  match c' with
  | ⟨0, _⟩ =>
    refine (concatenate_pair_apply_left 1 _ _ concatenates_S8192x1_S8192x1_S8192x2_d1 _ rfl
      (ValueIdx.ix2 k (0 : Fin 1)) (fun b => ?_)).trans ?_
    · match b with
      | ⟨0, _⟩ => rfl
      | ⟨1, _⟩ => rfl
    · rw [ReadP.val_main_v23_apply, v17_at]
  | ⟨1, _⟩ =>
    refine (concatenate_pair_apply_right 1 _ _ concatenates_S8192x1_S8192x1_S8192x2_d1 _ rfl rfl
      (ValueIdx.ix2 k (0 : Fin 1)) (fun b hb => ?_) rfl).trans ?_
    · match b with
      | ⟨0, _⟩ => rfl
      | ⟨1, _⟩ => exact absurd rfl hb
    · rw [ReadP.val_main_v24_apply, v22_at]

/-! ## The masked logits at an index -/

/-- The masked logits at `(r, c)`: the diagonal's constant when `r = c`, the logit otherwise. -/
theorem val_main_v27_apply (x0 : (⟨S2x128x64x64, .f32⟩ : BufTy).Contents (Elt Ideal)) (r c : Fin 8192) :
    ReadP.val_main_v27 (F := Ideal) x0 (ValueIdx.ix2 r c)
      = if r = c then FloatOps.ofBits (F := Ideal) .f32 0xCE6E6B28#32
        else ReadP.val_main_v11 (F := Ideal) x0 (ValueIdx.ix2 r c) := by
  unfold ReadP.val_main_v27
  have hupd : ∀ j, ReadP.val_main_v26 (F := Ideal) j = FloatOps.ofBits (F := Ideal) .f32 0xCE6E6B28#32 := fun j => by
    rw [ReadP.val_main_v26_apply, ReadP.val_main_cst_4_apply]
  have H := scatter_const_apply scatter_S8192x8192_S8192x2_S8192_n_01_01_1 (ReadP.val_main_v11 (F := Ideal) x0)
    (ReadP.val_main_v25 (F := Ideal)) (ReadP.val_main_v26 (F := Ideal)) _ hupd (ValueIdx.ix2 r c)
  by_cases hrc : r = c
  · subst hrc
    rw [if_pos rfl]
    exact H.1 (ValueIdx.ix1 r) (resultIdx_diag _ v25_at r)
  · rw [if_neg hrc]
    refine H.2 (fun j hj => ?_)
    obtain ⟨k, rfl⟩ : ∃ k : Fin 8192, j = ValueIdx.ix1 k := ⟨j 0, ValueIdx.eq_ix1 j⟩
    rw [resultIdx_diag _ v25_at] at hj
    have h2 := Option.some.inj hj
    have h0 : k = r := congrFun h2 0
    have h1 : k = c := congrFun h2 1
    exact hrc (h0.symm.trans h1)

end Cert.ReferenceIdeal.RefValue

end
-- ==== Proof.RefSpec.lean ====
/-
  The reference's two row sums are the row sums of the specification: with `E` the normalised embedding rows and
  `lab` the flattened labels, the total row sum at row `r` is the sum over the columns `c` of `exp (logit r c)`,
  and the positive row sum keeps the columns whose label is `r`'s. The logit off the diagonal is the inner product
  of rows `r` and `c` divided by the temperature's binary value `13421773 / 2^27`, which on every extended real is
  the product with its reciprocal `2^27 / 13421773`; on the diagonal it is the constant the scatter writes.
-/
import proofs.«400339_j87479893885192_3_alg».proof.Proof.RefScatter
import proofs.«400339_j87479893885192_3_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo

/-- The temperature's pattern denotes `13421773 / 2^27`. -/
theorem ofBits_temp : Ideal.ofBits .f32 0x3DCCCCCD#32 = ((13421773 / 134217728 : ℝ) : EReal) := by
  simp [Ideal.ofBits, Ideal.ieee, -EReal.coe_mul]; norm_num

/-- The left factor of the product at `(r, c)`, term `k`: row `r`, channel `k`. -/
theorem lidx_at (r c : Fin 8192) (k : Fin 128) : ReadP.lidx_main_v9 (ValueIdx.ix2 r c) k = ValueIdx.ix2 r k := by
  funext a
  match a with
  | ⟨0, _⟩ => rfl
  | ⟨1, _⟩ => rfl

/-- The right factor, read through the transpose: row `c`, channel `k`. -/
theorem ridx_at (r c : Fin 8192) (k : Fin 128) :
    ReadP.idx_main_v8 (ReadP.ridx_main_v9 (ValueIdx.ix2 r c) k) = ValueIdx.ix2 c k := by
  funext a
  match a with
  | ⟨0, _⟩ => rfl
  | ⟨1, _⟩ => rfl

/-- The logit at `(r, c)` is the inner product of the two rows times the inverse temperature. -/
theorem v11_at (x0 : (⟨S2x128x64x64, .f32⟩ : BufTy).Contents (Elt Ideal)) (r c : Fin 8192) :
    ReadP.val_main_v11 (F := Ideal) x0 (ValueIdx.ix2 r c)
      = Cert.Contrast.dot (fun i => ReadP.val_main_v7 (F := Ideal) x0 i) r c * Cert.Contrast.invTemp := by
  rw [ReadP.val_main_v11_apply, ReadP.val_main_v10_apply, ReadP.val_main_cst_0_apply, Ideal.hostDivf_def, Ideal.ofBits_def,
    ofBits_temp, Ideal.div_coe (by norm_num), ReadP.val_main_v9_apply]
  unfold Cert.Contrast.dot Cert.Contrast.invTemp
  have hinv : ((1 / (13421773 / 134217728) : ℝ) : EReal) = ((134217728 / 13421773 : ℝ) : EReal) := by norm_num
  rw [hinv]
  refine congrArg (fun t : EReal => t * ((134217728 / 13421773 : ℝ) : EReal)) ?_
  exact Finset.sum_congr rfl fun k _ => by rw [ReadP.val_main_v8_apply, lidx_at, ridx_at]

/-- The exponential of the masked logit at `(r, c)`. -/
theorem v28_at (x0 : (⟨S2x128x64x64, .f32⟩ : BufTy).Contents (Elt Ideal)) (r c : Fin 8192) :
    ReadP.val_main_v28 (F := Ideal) x0 (ValueIdx.ix2 r c)
      = Cert.Contrast.ex (fun i => ReadP.val_main_v7 (F := Ideal) x0 i) r c := by
  rw [ReadP.val_main_v28_apply, Ideal.hostUnary_exp_def, val_main_v27_apply]
  unfold Cert.Contrast.ex Cert.Contrast.logit Cert.Contrast.negBig
  by_cases h : r = c
  · rw [if_pos h, if_pos h]; rfl
  · rw [if_neg h, if_neg h, v11_at]

/-- The column index of a row sum: row `r`, column `k`. -/
theorem idx36_at (r k : Fin 8192) : ReadP.idx_main_v36 (ValueIdx.ix1 r) k = ValueIdx.ix2 r k := by
  funext a
  match a with
  | ⟨0, _⟩ => rfl
  | ⟨1, _⟩ => rfl

theorem idx35_at (r k : Fin 8192) : ReadP.idx_main_v35 (ValueIdx.ix1 r) k = ValueIdx.ix2 r k := by
  funext a
  match a with
  | ⟨0, _⟩ => rfl
  | ⟨1, _⟩ => rfl

/-- The row's label, read through the two broadcasts. -/
theorem idx_row_at (r k : Fin 8192) :
    ReadP.idx_main_v29 (ReadP.idx_main_v31 (ValueIdx.ix2 r k)) = ValueIdx.ix1 r := by
  funext a
  match a with
  | ⟨0, _⟩ => rfl

/-- The column's label, read through the two broadcasts. -/
theorem idx_col_at (r k : Fin 8192) :
    ReadP.idx_main_v30 (ReadP.idx_main_v32 (ValueIdx.ix2 r k)) = ValueIdx.ix1 k := by
  funext a
  match a with
  | ⟨0, _⟩ => rfl

/-- The reference's total row sum is the specification's. -/
theorem ref_tot (x0 : (⟨S2x128x64x64, .f32⟩ : BufTy).Contents (Elt Ideal)) (r : Fin 8192) :
    ReadP.val_main_v36 (F := Ideal) x0 (ValueIdx.ix1 r)
      = Cert.Contrast.tot (fun i => ReadP.val_main_v7 (F := Ideal) x0 i) r := by
  rw [ReadP.val_main_v36_apply, ReadP.val_main_cst_7_apply, Ideal.ofBits_def, Ideal.ofBits_zero_f32, zero_add]
  unfold Cert.Contrast.tot
  refine Finset.sum_congr rfl fun k _ => ?_
  rw [idx36_at, v28_at]

/-- The reference's positive row sum is the specification's. -/
theorem ref_pos (x0 : (⟨S2x128x64x64, .f32⟩ : BufTy).Contents (Elt Ideal))
    (x1 : (⟨S2x64x64, .i32⟩ : BufTy).Contents (Elt Ideal)) (r : Fin 8192) :
    ReadP.val_main_v35 (F := Ideal) x0 x1 (ValueIdx.ix1 r)
      = Cert.Contrast.pos (fun i => ReadP.val_main_v7 (F := Ideal) x0 i) (fun i => ReadP.val_main_v2 (F := Ideal) x1 i) r := by
  rw [ReadP.val_main_v35_apply, ReadP.val_main_cst_6_apply, Ideal.ofBits_def, Ideal.ofBits_zero_f32, zero_add]
  unfold Cert.Contrast.pos
  refine Finset.sum_congr rfl fun k _ => ?_
  rw [idx35_at, ReadP.val_main_v34_apply, ReadP.val_main_v33_apply, ReadP.val_main_v31_apply, ReadP.val_main_v29_apply,
    ReadP.val_main_v32_apply, ReadP.val_main_v30_apply, ReadP.val_main_call1_v1_apply, ReadP.val_main_call1_v0_apply,
    ReadP.val_main_cst_5_apply, Ideal.ofBits_def, Ideal.ofBits_zero_f32, v28_at, idx_row_at, idx_col_at]
  unfold Scalar.select
  exact if_congr IntOp.cmpi_eq rfl rfl

end Cert.ReferenceIdeal.RefValue

end
-- ==== Proof.KIBridge.lean ====
/-
  The kernel's result, named: its host tail applied to the two row-sum columns the region leaves, which are
  the reference's own row sums. Row r of the same-label column is what the point of row tile r / 1024 and
  column tile 3 leaves at row r % 1024 of its running column, the sum over the four column tiles of the
  tile's same-label sums, that is the sum over all 8192 columns; the reference's row sum is that sum too.
-/
import proofs.«400339_j87479893885192_3_alg».proof.Proof.KIHost
import proofs.«400339_j87479893885192_3_alg».proof.Proof.KIArr
import proofs.«400339_j87479893885192_3_alg».proof.Proof.KIValue2
import proofs.«400339_j87479893885192_3_alg».proof.Proof.RefSpec

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The embeddings, normalised, as the reference computes them from the first argument. -/
abbrev embOf (c : Dev nD) : Cert.Contrast.SE.Idx → EReal :=
  fun i => Cert.ReferenceIdeal.ReadP.val_main_v7 (F := Ideal) (m ((c : Thread nD τ).loc main_arg0)) i
/-- The flat labels, as the reference computes them from the second argument. -/
abbrev labOf (c : Dev nD) : Cert.Contrast.SN.Idx → BitVec 32 :=
  fun i => Cert.ReferenceIdeal.ReadP.val_main_v2 (F := Ideal) (m ((c : Thread nD τ).loc main_arg1)) i

/-- The mean loss both programs end at: the shared host tail of the reference's two row-sum vectors. -/
def result (c : Dev nD) : Buf (Elt Ideal) ((c.tc : Thread nD τ).loc main_v36) :=
  Cert.ReferenceIdeal.RefValue.tail
    (Cert.ReferenceIdeal.ReadP.val_main_v35 (F := Ideal) (m ((c.tc : Thread nD τ).loc main_arg0)) (m ((c.tc : Thread nD τ).loc main_arg1)))
    (Cert.ReferenceIdeal.ReadP.val_main_v36 (F := Ideal) (m ((c.tc : Thread nD τ).loc main_arg0)))
    (Cert.ReferenceIdeal.ReadP.val_main_v2 (F := Ideal) (m ((c.tc : Thread nD τ).loc main_arg1)))

/-- A row index as its tile and its row within the tile. -/
theorem row_split (r : Fin 8192) : ∃ (I : Fin 8) (p : Fin 1024), r = ⟨1024 * I.val + p.val, by omega⟩ :=
  ⟨⟨r.val / 1024, by omega⟩, ⟨r.val % 1024, by omega⟩, Fin.ext (by simp only []; omega)⟩

/-- The same-label column the region leaves, flattened, is the reference's same-label row sums. -/
theorem pos_flat (c : Dev nD) :
    shapeCast S8192 (W4 m ρ c (Proc.devRef .tc main_v11_0)) shapeCasts_S8192x1_S8192
      = Cert.ReferenceIdeal.ReadP.val_main_v35 (F := Ideal) (m ((c.tc : Thread nD τ).loc main_arg0)) (m ((c.tc : Thread nD τ).loc main_arg1)) := by
  funext i
  obtain ⟨I, p, hr⟩ := row_split (i 0)
  have hi : i = ValueIdx.ix1 (⟨1024 * I.val + p.val, by have := I.isLt; have := p.isLt; omega⟩ : Fin 8192) := by
    rw [ValueIdx.eq_ix1 i, hr]; rfl
  rw [hi, shapeCast_apply _ shapeCasts_S8192x1_S8192 _
    (ValueIdx.ix2 (⟨1024 * I.val + p.val, by have := I.isLt; have := p.isLt; omega⟩ : Fin 8192) (0 : Fin 1))
    (by rw [Shape.rowMajor_val_two, Shape.rowMajor_val_one]; show (1024 * I.val + p.val) * 1 + 0 = 1024 * I.val + p.val; omega),
    W4_out0 m ρ c]
  refine (arrAt_pos_at (V3 m ρ) c I p).trans ?_
  refine (acc_value (V3 m ρ) c (embOf m c) (labOf m c) (fun r d => V3_main_v7 m ρ c _) (V3_main_v9 m ρ c) (V3_main_v10 m ρ c) I p).1.trans ?_
  exact (Cert.ReferenceIdeal.RefValue.ref_pos _ _ _).symm

/-- The total column the region leaves, flattened, is the reference's total row sums. -/
theorem tot_flat (c : Dev nD) :
    shapeCast S8192 (W4 m ρ c (Proc.devRef .tc main_v11_1)) shapeCasts_S8192x1_S8192
      = Cert.ReferenceIdeal.ReadP.val_main_v36 (F := Ideal) (m ((c.tc : Thread nD τ).loc main_arg0)) := by
  funext i
  obtain ⟨I, p, hr⟩ := row_split (i 0)
  have hi : i = ValueIdx.ix1 (⟨1024 * I.val + p.val, by have := I.isLt; have := p.isLt; omega⟩ : Fin 8192) := by
    rw [ValueIdx.eq_ix1 i, hr]; rfl
  rw [hi, shapeCast_apply _ shapeCasts_S8192x1_S8192 _
    (ValueIdx.ix2 (⟨1024 * I.val + p.val, by have := I.isLt; have := p.isLt; omega⟩ : Fin 8192) (0 : Fin 1))
    (by rw [Shape.rowMajor_val_two, Shape.rowMajor_val_one]; show (1024 * I.val + p.val) * 1 + 0 = 1024 * I.val + p.val; omega),
    W4_out1 m ρ c]
  refine (arrAt_tot_at (V3 m ρ) c I p).trans ?_
  refine (acc_value (V3 m ρ) c (embOf m c) (labOf m c) (fun r d => V3_main_v7 m ρ c _) (V3_main_v9 m ρ c) (V3_main_v10 m ρ c) I p).2.trans ?_
  exact (Cert.ReferenceIdeal.RefValue.ref_tot _ _).symm

/-- The kernel's returned buffer is `result`. -/
theorem W7_result (c : Dev nD) : W7 m ρ c (Proc.devRef .tc main_v36) = result m c := by
  rw [W7_main_v36_lab m ρ c, pos_flat m ρ c, tot_flat m ρ c]
  rfl

end Cert.KernelIdeal.Hand

end
-- ==== Proof.lean ====
/-
  The certificate of the contrastive-sums kernel against its jnp reference, over the extended reals.

  Both programs normalise the 8192 pixel embeddings (128 channels each), form the 8192 x 8192 logits
  e_r . e_c / T with the diagonal replaced by the finite stand-in -1e9, and sum exp(logit) along each row
  twice: over every column (tot) and over the columns carrying the row's label (pos). The reference does
  it on whole matrices; the kernel walks an 8 x 4 grid of 1024 x 2048 score tiles, keeps two running columns
  of row sums in scratch across the four column tiles of a row tile, and writes them out at the last one.
  The kernel multiplies by the NAMED inverse temperature 134217728/13421773 = 1/f32(0.1) where the reference
  divides by f32(0.1): on the extended reals the two are one function. A sum over four column tiles of sums
  over 2048 columns is the sum over the 8192 columns (addition on the extended reals is commutative and
  associative; no finiteness is used). After the row sums both programs apply the same host operations
  (-log(pos / (tot + 1e-6)), the per-class means), carried here as one opaque function.

  The frames: the kernel region's two row windows read one array, so its points-to is split between them
  at the region's entry and joined at its exit; the running columns are tracked by the region invariant.
-/
import proofs.«400339_j87479893885192_3_alg».proof.Defs
import proofs.«400339_j87479893885192_3_alg».proof.Proof.Gen.Kernel
import proofs.«400339_j87479893885192_3_alg».proof.Proof.Gen.KernelIdeal
import proofs.«400339_j87479893885192_3_alg».proof.Proof.Gen.ReferenceIdeal
import proofs.«400339_j87479893885192_3_alg».proof.Proof.Gen.Pre_finite_inputs
import proofs.«400339_j87479893885192_3_alg».proof.Proof.KWArgs
import proofs.«400339_j87479893885192_3_alg».proof.Proof.KIArgs
import proofs.«400339_j87479893885192_3_alg».proof.Proof.KIBridge
import Idealize.ShloMosaic.Adequacy
import Idealize.ShloMosaic.Init

noncomputable section

namespace Cert.Proof

open Idealize.ShloMosaic Idealize.ShloMosaic.TcCoe Idealize.SL.Sem

/-- The word-level kernel runs and leaves its two argument arrays as launched. -/
theorem frame_k : @Cert.frame_Kernel Cert.Kernel.Gen.facts Cert.Pre_finite_inputs.Gen.facts := fun m ρ _ =>
  (θ_run (Cert.Kernel.defs (F := Bits)) _ _).mono (fun _ h c =>
    ⟨(h c _ (Cert.Kernel.Hand.mem_uc Cert.Kernel.main_arg0 (by decide))).trans (Cert.Kernel.Hand.W7_main_arg0 m ρ c),
     (h c _ (Cert.Kernel.Hand.mem_uc Cert.Kernel.main_arg1 (by decide))).trans (Cert.Kernel.Hand.W7_main_arg1 m ρ c)⟩)
    (Cert.Kernel.Hand.run_main (F := Bits) m ρ)

/-- So does the idealized kernel. -/
theorem frame_ki : @Cert.frame_KernelIdeal Cert.KernelIdeal.Gen.facts Cert.Pre_finite_inputs.Gen.facts := fun m ρ _ =>
  (θ_run (Cert.KernelIdeal.defs (F := Ideal)) _ _).mono (fun _ h c =>
    ⟨(h c _ (Cert.KernelIdeal.Hand.mem_uc Cert.KernelIdeal.main_arg0 (by decide))).trans (Cert.KernelIdeal.Hand.W7_main_arg0 m ρ c),
     (h c _ (Cert.KernelIdeal.Hand.mem_uc Cert.KernelIdeal.main_arg1 (by decide))).trans (Cert.KernelIdeal.Hand.W7_main_arg1 m ρ c)⟩)
    (Cert.KernelIdeal.Hand.run_main (F := Ideal) m ρ)

/-- The reference is host operations only: its run with the result dropped. -/
theorem frame_ri : @Cert.frame_ReferenceIdeal Cert.ReferenceIdeal.Gen.facts Cert.Pre_finite_inputs.Gen.facts := fun m ρ _ =>
  (θ_run (Cert.ReferenceIdeal.defs (F := Ideal)) _ _).mono (fun _ h c => (h c).2) (Cert.ReferenceIdeal.ValueP.run (F := Ideal) m ρ)

/-- The ledger's one entry: the table gives "inv_temperature" the value 134217728/13421773, which the printed constant
    is at the ideal instance. -/
theorem preserves : Cert.preserves_Kernel_KernelIdeal :=
  IdealRules.named_const.statement Cert.KernelIdeal.κ "inv_temperature" .f32 0x41200000#32 ((134217728 / 13421773 : ℝ) : EReal) rfl

/-- From memories agreeing on the arguments both programs end at the same mean loss: the shared host tail of the
    same row sums. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Hand.result m c, ?_, ?_⟩
  · exact (θ_run (Cert.KernelIdeal.defs (F := Ideal)) _ _).mono (fun _ h c =>
      ⟨(h c _ (Cert.KernelIdeal.Hand.mem_uc Cert.KernelIdeal.main_v36 (by decide))).trans (Cert.KernelIdeal.Hand.W7_result m ρ c),
       (h c _ (Cert.KernelIdeal.Hand.mem_uc Cert.KernelIdeal.main_arg0 (by decide))).trans (Cert.KernelIdeal.Hand.W7_main_arg0 m ρ c),
       (h c _ (Cert.KernelIdeal.Hand.mem_uc Cert.KernelIdeal.main_arg1 (by decide))).trans (Cert.KernelIdeal.Hand.W7_main_arg1 m ρ c)⟩)
      (Cert.KernelIdeal.Hand.run_main (F := Ideal) m ρ)
  · refine (θ_run (Cert.ReferenceIdeal.defs (F := Ideal)) _ _).mono (fun _ h c => ⟨(h c).1.trans ?_, (h c).2⟩)
      (Cert.ReferenceIdeal.RefValue.run m' ρ')
    unfold Cert.KernelIdeal.Hand.result
    rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
